-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S800000 32) (main_arg9 : IVec S800000 32) (main_v33 : IVec S_ 1) : IVec S_ 1 :=
  let main_c_12 : IVec S_ 32 := constantI S_ 32 4294917296#32
  let main_v34 : IVec S800000 32 := broadcastInDim S800000 ![] bcast_S_S800000 main_c_12
  let main_v35 : IVec S800000 1 := cmpi .sge main_arg7 main_v34
  let main_c_13 : IVec S_ 32 := constantI S_ 32 50000#32
  let main_v36 : IVec S800000 32 := broadcastInDim S800000 ![] bcast_S_S800000 main_c_13
  let main_v37 : IVec S800000 1 := cmpi .slt main_arg7 main_v36
  let main_v38 : IVec S800000 1 := andi main_v35 main_v37
  let main_c_14 : IVec S_ 1 := constantI S_ 1 1#1
  let main_v39 : IVec S_ 1 := (fun x v => Host.reduce IntOp.andi x v reducesTo_S800000_S_d0 h_S_) main_v38 main_c_14
  let main_v40 : IVec S_ 1 := andi main_v33 main_v39
  let main_c_15 : IVec S_ 32 := constantI S_ 32 4294917296#32
  let main_v41 : IVec S800000 32 := broadcastInDim S800000 ![] bcast_S_S800000 main_c_15
  let main_v42 : IVec S800000 1 := cmpi .sge main_arg9 main_v41
  let main_c_16 : IVec S_ 32 := constantI S_ 32 50000#32
  let main_v43 : IVec S800000 32 := broadcastInDim S800000 ![] bcast_S_S800000 main_c_16
  let main_v44 : IVec S800000 1 := cmpi .slt main_arg9 main_v43
  let main_v45 : IVec S800000 1 := andi main_v42 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v40 main_v46
  main_v47

def fn_part1 {F : FTy → Type} [FloatOps F] (main_arg4 : FVec F S64 .f32) (main_arg5 : FVec F S128x64 .f32) (main_arg6 : FVec F S64 .f32) (main_arg7 : IVec S800000 32) (main_arg9 : IVec S800000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg9 main_v33

def fn {F : FTy → Type} [FloatOps F] (main_arg0 : FVec F S50000x64 .f32) (main_arg1 : FVec F S800000x64 .f32) (main_arg2 : FVec F S800000x64 .f32) (main_arg3 : FVec F S128x64 .f32) (main_arg4 : FVec F S64 .f32) (main_arg5 : FVec F S128x64 .f32) (main_arg6 : FVec F S64 .f32) (main_arg7 : IVec S800000 32) (main_arg8 : IVec S800000 32) (main_arg9 : IVec S800000 32) (main_arg10 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S800000x64 .f32 := Host.absf main_arg2
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg9 main_v13 main_v16
-- ==== Kernel.lean ====
abbrev S50000x64 : Shape := ⟨2, ![50000, 64]⟩
abbrev S800000x64 : Shape := ⟨2, ![800000, 64]⟩
abbrev S128x64 : Shape := ⟨2, ![128, 64]⟩
abbrev S64 : Shape := ⟨1, ![64]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S1x64 : Shape := ⟨2, ![1, 64]⟩
abbrev S5000x64 : Shape := ⟨2, ![5000, 64]⟩
abbrev S64x64 : Shape := ⟨2, ![64, 64]⟩

abbrev nBuf : Space → Nat
  | .hbm => 127
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000x64, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x64, .f32⟩
  | .hbm, ⟨30, _⟩ => ⟨S800000x64, .i1⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S1, .i32⟩
  | .hbm, ⟨48, _⟩ => ⟨S_, .i32⟩
  | .hbm, ⟨49, _⟩ => ⟨S800000x1, .i32⟩
  | .hbm, ⟨50, _⟩ => ⟨S800000x1, .i1⟩
  | .hbm, ⟨51, _⟩ => ⟨S1x1, .i32⟩
  | .hbm, ⟨52, _⟩ => ⟨S800000x1, .i32⟩
  | .hbm, ⟨53, _⟩ => ⟨S800000x1, .i1⟩
  | .hbm, ⟨54, _⟩ => ⟨S800000x1, .i1⟩
  | .hbm, ⟨55, _⟩ => ⟨S_, .i1⟩
  | .hbm, ⟨56, _⟩ => ⟨S800000, .i1⟩
  | .hbm, ⟨57, _⟩ => ⟨S800000x64, .f32⟩
  | .hbm, ⟨58, _⟩ => ⟨S800000x64, .i1⟩
  | .hbm, ⟨59, _⟩ => ⟨S_, .f32⟩
  | .hbm, ⟨60, _⟩ => ⟨S800000x64, .f32⟩
  | .hbm, ⟨61, _⟩ => ⟨S800000x64, .f32⟩
  | .hbm, ⟨62, _⟩ => ⟨S800000x64, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S1, .i32⟩
  | .hbm, ⟨78, _⟩ => ⟨S_, .i32⟩
  | .hbm, ⟨79, _⟩ => ⟨S800000x1, .i32⟩
  | .hbm, ⟨80, _⟩ => ⟨S800000x1, .i1⟩
  | .hbm, ⟨81, _⟩ => ⟨S1x1, .i32⟩
  | .hbm, ⟨82, _⟩ => ⟨S800000x1, .i32⟩
  | .hbm, ⟨83, _⟩ => ⟨S800000x1, .i1⟩
  | .hbm, ⟨84, _⟩ => ⟨S800000x1, .i1⟩
  | .hbm, ⟨85, _⟩ => ⟨S_, .i1⟩
  | .hbm, ⟨86, _⟩ => ⟨S800000, .i1⟩
  | .hbm, ⟨87, _⟩ => ⟨S800000x64, .f32⟩
  | .hbm, ⟨88, _⟩ => ⟨S800000x64, .i1⟩
  | .hbm, ⟨89, _⟩ => ⟨S_, .f32⟩
  | .hbm, ⟨90, _⟩ => ⟨S800000x64, .f32⟩
  | .hbm, ⟨91, _⟩ => ⟨S800000x64, .f32⟩
  | .hbm, ⟨92, _⟩ => ⟨S800000x64, .f32⟩
  | .hbm, ⟨93, _⟩ => ⟨S_, .f32⟩
  | .hbm, ⟨94, _⟩ => ⟨S50000x64, .f32⟩
  | .hbm, ⟨95, _⟩ => ⟨S800000x1, .i32⟩
  | .hbm, ⟨96, _⟩ => ⟨S50000x64, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S1, .i32⟩
  | .hbm, ⟨106, _⟩ => ⟨S_, .i32⟩
  | .hbm, ⟨107, _⟩ => ⟨S800000x1, .i32⟩
  | .hbm, ⟨108, _⟩ => ⟨S800000x1, .i1⟩
  | .hbm, ⟨109, _⟩ => ⟨S1x1, .i32⟩
  | .hbm, ⟨110, _⟩ => ⟨S800000x1, .i32⟩
  | .hbm, ⟨111, _⟩ => ⟨S800000x1, .i1⟩
  | .hbm, ⟨112, _⟩ => ⟨S800000x1, .i1⟩
  | .hbm, ⟨113, _⟩ => ⟨S_, .i1⟩
  | .hbm, ⟨114, _⟩ => ⟨S800000, .i1⟩
  | .hbm, ⟨115, _⟩ => ⟨S800000x64, .f32⟩
  | .hbm, ⟨116, _⟩ => ⟨S800000x64, .i1⟩
  | .hbm, ⟨117, _⟩ => ⟨S_, .f32⟩
  | .hbm, ⟨118, _⟩ => ⟨S800000x64, .f32⟩
  | .hbm, ⟨119, _⟩ => ⟨S800000x64, .f32⟩
  | .hbm, ⟨120, _⟩ => ⟨S800000x64, .f32⟩
  | .hbm, ⟨121, _⟩ => ⟨S_, .f32⟩
  | .hbm, ⟨122, _⟩ => ⟨S50000x64, .f32⟩
  | .hbm, ⟨123, _⟩ => ⟨S800000x1, .i32⟩
  | .hbm, ⟨124, _⟩ => ⟨S50000x64, .f32⟩
  | .hbm, ⟨125, _⟩ => ⟨S1x64, .f32⟩
  | .hbm, ⟨126, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_cst : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_cst_0 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v12 : Ref sig .tc := ⟨.hbm, 91, rfl⟩
abbrev main_v13 : Ref sig .tc := ⟨.hbm, 92, rfl⟩
abbrev main_cst_1 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v17 : Ref sig .tc := ⟨.hbm, 119, rfl⟩
abbrev main_v18 : Ref sig .tc := ⟨.hbm, 120, rfl⟩
abbrev main_cst_2 : Ref sig .tc := ⟨.hbm, 121, rfl⟩
abbrev main_v19 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S64_S1x64 : S64.ShapeCasts S1x64
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  bitsLt_bf16_f32 : FTy.bits .bf16 < FTy.bits .f32
  slices_S128x64_o64_0_S64x64 : S128x64.Slices ![64, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v4) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S128x64 : Shape := ⟨2, ![128, 64]⟩
abbrev S64 : Shape := ⟨1, ![64]⟩
abbrev S800000 : Shape := ⟨1, ![800000]⟩
abbrev S_ : Shape := ⟨0, ![]⟩
abbrev S800000x1 : Shape := ⟨2, ![800000, 1]⟩
abbrev S50000x128 : Shape := ⟨2, ![50000, 128]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000x64, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x128, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S50000x128, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_cst : Ref sig .tc := ⟨.hbm, 44, rfl⟩
abbrev main_call0_v0 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_cst : Ref sig .tc := ⟨.hbm, 81, rfl⟩
abbrev main_call1_v0 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.HostWrites.lean ====
/- For each stretch of host operations of the idealized kernel program: the buffers its operations write, that they write no
   other buffer, and therefore that every other buffer holds after the stretch what it held before. -/
import proofs.«425860_j65163243815763_3_alg».proof.Proof.Gen.KernelIdeal.Launch
import Idealize.ShloMosaic.Lib.StableHlo.Run

noncomputable section

namespace Cert.KernelIdeal.HostWrites

open Idealize.ShloMosaic Idealize.ShloMosaic.TcCoe Idealize.SL.Sem
open Cert.KernelIdeal Cert.KernelIdeal.Gen

variable {F : FTy → Type} [FloatOps F]

/-- The buffers `hostOps0`'s 23 operations write. -/
abbrev wr0 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem writes0 : (hostOps0 : List (HloOp τ sig (Elt F))).Forall fun op => op.writes ⊆ (wr0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0` does not write keeps its contents. -/
theorem keep0 (X : Valuation τ sig (Elt F)) (r : Ref sig .tc) (h : r ∉ wr0) :
    StableHlo.after hostOps0 X (Proc.devRef .tc r) = X (Proc.devRef .tc r) :=
  StableHlo.after_of_writes_sub hostOps0 X writes0 h

/-- The buffers `hostOps0_1`'s 5 operations write. -/
abbrev wr0_1 : List (Ref sig .tc) := [main_v1, main_cst, main_v2, main_v3, main_v4]
theorem writes0_1 : (hostOps0_1 : List (HloOp τ sig (Elt F))).Forall fun op => op.writes ⊆ (wr0_1.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_1` does not write keeps its contents. -/
theorem keep0_1 (X : Valuation τ sig (Elt F)) (r : Ref sig .tc) (h : r ∉ wr0_1) :
    StableHlo.after hostOps0_1 X (Proc.devRef .tc r) = X (Proc.devRef .tc r) :=
  StableHlo.after_of_writes_sub hostOps0_1 X writes0_1 h

/-- The buffers `hostOps0_2`'s 23 operations write. -/
abbrev wr0_2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
theorem writes0_2 : (hostOps0_2 : List (HloOp τ sig (Elt F))).Forall fun op => op.writes ⊆ (wr0_2.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_2` does not write keeps its contents. -/
theorem keep0_2 (X : Valuation τ sig (Elt F)) (r : Ref sig .tc) (h : r ∉ wr0_2) :
    StableHlo.after hostOps0_2 X (Proc.devRef .tc r) = X (Proc.devRef .tc r) :=
  StableHlo.after_of_writes_sub hostOps0_2 X writes0_2 h

/-- The buffers `hostOps0_3`'s 6 operations write. -/
abbrev wr0_3 : List (Ref sig .tc) := [main_v6, main_cst_0, main_v7, main_v8, main_v9, main_v10]
theorem writes0_3 : (hostOps0_3 : List (HloOp τ sig (Elt F))).Forall fun op => op.writes ⊆ (wr0_3.map (Proc.devRef (τ := τ) .tc)).toFinset := by
  simp only [hostOps0_3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_3` does not write keeps its contents. -/
theorem keep0_3 (X : Valuation τ sig (Elt F)) (r : Ref sig .tc) (h : r ∉ wr0_3) :
    StableHlo.after hostOps0_3 X (Proc.devRef .tc r) = X (Proc.devRef .tc r) :=
  StableHlo.after_of_writes_sub hostOps0_3 X writes0_3 h

/-- The buffers `hostOps1`'s 23 operations write. -/
abbrev wr1 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v12]
theorem writes1 : (hostOps1 : List (HloOp τ sig (Elt F))).Forall fun op => op.writes ⊆ (wr1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps1` does not write keeps its contents. -/
theorem keep1 (X : Valuation τ sig (Elt F)) (r : Ref sig .tc) (h : r ∉ wr1) :
    StableHlo.after hostOps1 X (Proc.devRef .tc r) = X (Proc.devRef .tc r) :=
  StableHlo.after_of_writes_sub hostOps1 X writes1 h

/-- The buffers `hostOps1_1`'s 5 operations write. -/
abbrev wr1_1 : List (Ref sig .tc) := [main_v13, main_cst_1, main_v14, main_v15, main_v16]
theorem writes1_1 : (hostOps1_1 : List (HloOp τ sig (Elt F))).Forall fun op => op.writes ⊆ (wr1_1.map (Proc.devRef (τ := τ) .tc)).toFinset := by
  simp only [hostOps1_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps1_1` does not write keeps its contents. -/
theorem keep1_1 (X : Valuation τ sig (Elt F)) (r : Ref sig .tc) (h : r ∉ wr1_1) :
    StableHlo.after hostOps1_1 X (Proc.devRef .tc r) = X (Proc.devRef .tc r) :=
  StableHlo.after_of_writes_sub hostOps1_1 X writes1_1 h

/-- The buffers `hostOps1_2`'s 23 operations write. -/
abbrev wr1_2 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v17]
theorem writes1_2 : (hostOps1_2 : List (HloOp τ sig (Elt F))).Forall fun op => op.writes ⊆ (wr1_2.map (Proc.devRef (τ := τ) .tc)).toFinset := by
  simp only [hostOps1_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps1_2` does not write keeps its contents. -/
theorem keep1_2 (X : Valuation τ sig (Elt F)) (r : Ref sig .tc) (h : r ∉ wr1_2) :
    StableHlo.after hostOps1_2 X (Proc.devRef .tc r) = X (Proc.devRef .tc r) :=
  StableHlo.after_of_writes_sub hostOps1_2 X writes1_2 h

/-- The buffers `hostOps1_3`'s 6 operations write. -/
abbrev wr1_3 : List (Ref sig .tc) := [main_v18, main_cst_2, main_v19, main_v20, main_v21, main_v22]
theorem writes1_3 : (hostOps1_3 : List (HloOp τ sig (Elt F))).Forall fun op => op.writes ⊆ (wr1_3.map (Proc.devRef (τ := τ) .tc)).toFinset := by
  simp only [hostOps1_3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps1_3` does not write keeps its contents. -/
theorem keep1_3 (X : Valuation τ sig (Elt F)) (r : Ref sig .tc) (h : r ∉ wr1_3) :
    StableHlo.after hostOps1_3 X (Proc.devRef .tc r) = X (Proc.devRef .tc r) :=
  StableHlo.after_of_writes_sub hostOps1_3 X writes1_3 h

end Cert.KernelIdeal.HostWrites

end
-- ==== Proof.Spec.lean ====
/-
  The mathematics this certificate is about, stated once over literal shapes and with no program in sight.

  One message-passing layer sends node features `h : [N, 64]` to `h + relu (a₁ · W_top + a₂ · W_bot + b)`, where `a₁`, `a₂ : [N, 64]`
  are the two relations' aggregates (edge feature times the source node's row, summed into the destination node's row), `W : [128, 64]`
  is cut into its upper and lower 64 rows, and `b : [64]` is added to every row. `updAt` is that update at one entry `(p, q)`:
  entry `q` of row `p` needs row `p` of `a₁` and `a₂`, column `q` of `W`, entry `q` of `b` and entry `(p, q)` of `h`, nothing else — so it
  is the same function on a block of rows as on the whole array (`n` rows, any `n`).

  A program that first joins `a₁` and `a₂` side by side into `[N, 128]` and multiplies by the whole `W` computes the same entry: a sum over
  128 terms is the sum of its first 64 and its last 64 (`sum_split`). On the extended reals addition is commutative and associative
  without exception, so this needs no finiteness.

  `InRange s` says a 32-bit word, read as a signed integer, is a valid row index of a 50000-row array in the convention where a negative
  index counts from the end: `-50000 ≤ s < 50000`.
-/
import Idealize.ShloMosaic.PureOps.Ideal
import Idealize.ShloMosaic.PureOps.Ideal.Laws
import Idealize.ShloMosaic.Lib.ValueIdx

noncomputable section

namespace Cert.LinkConv

open Idealize.ShloMosaic Idealize.ShloMosaic.ValueIdx

/-- The word `s`, as a signed integer, lies in `[-50000, 50000)`: the two signed comparisons against the words of `-50000` and `50000`. -/
def InRange (s : BitVec 32) : Prop :=
  IntOp.cmpi .sge s 4294917296#32 = 1#1 ∧ IntOp.cmpi .slt s 50000#32 = 1#1

/-- Entry `(p, q)` of the updated node features: `h[p,q] + max ((Σₖ a₁[p,k]·W[k,q] + Σₖ a₂[p,k]·W[64+k,q]) + b[q]) 0`. -/
def updAt {n : Nat} (a1 a2 h : (⟨2, ![n, 64]⟩ : Shape).Idx → EReal) (W : (⟨2, ![128, 64]⟩ : Shape).Idx → EReal) (b : Fin 64 → EReal)
    (p : Fin n) (q : Fin 64) : EReal :=
  h (ix2 p q) + max ((∑ k : Fin 64, a1 (ix2 p k) * W (ix2 (Fin.castAdd 64 k) q)
    + ∑ k : Fin 64, a2 (ix2 p k) * W (ix2 (Fin.natAdd 64 k) q)) + b q) 0

/-! ## The shapes: nodes × hidden, edges, edges as a column, edges × hidden, the scalar -/

abbrev SN : Shape := ⟨2, ![50000, 64]⟩
abbrev SE : Shape := ⟨1, ![800000]⟩
abbrev SE1 : Shape := ⟨2, ![800000, 1]⟩
abbrev SEH : Shape := ⟨2, ![800000, 64]⟩
abbrev S0 : Shape := ⟨0, ![]⟩

/-- The updated node features as an array of `n` rows. -/
def upd {n : Nat} (a1 a2 h : (⟨2, ![n, 64]⟩ : Shape).Idx → EReal) (W : (⟨2, ![128, 64]⟩ : Shape).Idx → EReal) (b : Fin 64 → EReal) :
    (⟨2, ![n, 64]⟩ : Shape).Idx → EReal :=
  fun i => updAt a1 a2 h W b (i 0) (i 1)

theorem upd_ix2 {n : Nat} (a1 a2 h : (⟨2, ![n, 64]⟩ : Shape).Idx → EReal) (W : (⟨2, ![128, 64]⟩ : Shape).Idx → EReal) (b : Fin 64 → EReal)
    (p : Fin n) (q : Fin 64) : upd a1 a2 h W b (ix2 p q) = updAt a1 a2 h W b p q := rfl

/-- A sum over 128 terms is the sum of its first 64 terms plus the sum of its last 64, in any commutative monoid. -/
theorem sum_split {M : Type*} [AddCommMonoid M] (f : Fin 128 → M) :
    ∑ k : Fin 128, f k = ∑ k : Fin 64, f (Fin.castAdd 64 k) + ∑ k : Fin 64, f (Fin.natAdd 64 k) :=
  Fin.sum_univ_add (a := 64) (b := 64) (f : Fin (64 + 64) → M)

/-! ## One relation's aggregate and one layer, as functions of the argument arrays

Both programs gather the source nodes' rows with the same row gather (start index: the source word, plus 50000 when it is negative),
multiply by the edge features, and add the products into the destination nodes' rows of a zero array with the same scatter-add. What
the gather and the scatter-add compute is never opened: they enter only as one function, `agg`, applied to the same arrays on both sides.
Each printed program states its own copy of the dimension records and of the broadcast facts; `Dims` collects one program's. -/

/-- The dimension records and broadcast facts one printed program states for the row gather and the scatter-add. -/
structure Dims where
  gd : GatherDims SN SE1 SEH
  sd : ScatterDims SN SE1 SEH
  b0N : S0.BroadcastsInDim SN (![] : Fin 0 → Fin SN.rank)
  b0E : S0.BroadcastsInDim SE (![] : Fin 0 → Fin SE.rank)
  bE1 : SE.BroadcastsInDim SE1 (![0] : Fin 1 → Fin SE1.rank)

/-- The start index of edge `e`'s row read, as a column: `src e`, or `src e + 50000` when `src e` is negative. -/
def startIdx (D : Dims) (src : IVec SE 32) : IVec SE1 32 :=
  broadcastInDim SE1 ![0] D.bE1
    (select (cmpi .slt src (broadcastInDim SE ![] D.b0E (constantI S0 32 0#32)))
      (addi src (broadcastInDim SE ![] D.b0E (constantI S0 32 50000#32))) src)

/-- One relation's aggregate: row `dst e` of a zero array collects `feat e · h (row named by src e)` over the edges `e`. -/
def agg (D : Dims) (h : FVec Ideal SN .f32) (feat : FVec Ideal SEH .f32) (src dst : IVec SE 32) : FVec Ideal SN .f32 :=
  Host.scatterAdd D.sd (broadcastInDim SN ![] D.b0N (constant S0 .f32 0x00000000#32)) (broadcastInDim SE1 ![0] D.bE1 dst)
    (mulf feat (Host.gather D.gd h (startIdx D src)))

/-- One layer: both aggregates of `h`, then the node update with `W` and `b`. -/
def layer (D : Dims) (h : FVec Ideal SN .f32) (feat1 feat2 : FVec Ideal SEH .f32) (W : FVec Ideal (⟨2, ![128, 64]⟩ : Shape) .f32)
    (b : Fin 64 → EReal) (src1 dst1 src2 dst2 : IVec SE 32) : FVec Ideal SN .f32 :=
  upd (agg D h feat1 src1 dst1) (agg D h feat2 src2 dst2) h W b

end Cert.LinkConv

end
-- ==== Proof.TakeMask.lean ====
/-
  A row read that fills out-of-range rows with a constant is the plain row read when every start index is in range.

  The index column is `startIdx D src` (the source word, plus 50000 when negative). The mask of row `e` is
  `(0 ≤ idx e) and (idx e ≤ 49999)`, reduced by `and` over the column's one-entry axis from `true`, and broadcast along the 64 entries of
  the row. When `-50000 ≤ src e < 50000` for every `e`, the start index lies in `[0, 49999]`, the mask is `true` everywhere, and the
  select returns its first branch.
-/
import proofs.«425860_j65163243815763_3_alg».proof.Proof.Spec
import Idealize.ShloMosaic.Lib.StableHlo.Predicate
import Idealize.ShloMosaic.Lib.ReduceAll

noncomputable section

namespace Cert.LinkConv

open Idealize.ShloMosaic Idealize.ShloMosaic.ValueIdx

abbrev S1 : Shape := ⟨1, ![1]⟩
abbrev S11 : Shape := ⟨2, ![1, 1]⟩

/-- The start word of an in-range source word lies in `[0, 49999]`: a negative word `s ≥ -50000` becomes `s + 50000 ∈ [0, 49999]`
    (the sum does not wrap), a non-negative word `s < 50000` stays. Both signed comparisons then hold, and so does their `and`. -/
theorem startWord_ok (s : BitVec 32) (h : InRange s) :
    IntOp.andi
      (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  obtain ⟨h1, h2⟩ := h
  rw [IntOp.cmpi_sge] at h1
  rw [IntOp.cmpi_slt] at h2
  rw [IntOp.andi_eq_one, IntOp.cmpi_sge, IntOp.cmpi_sle]
  have c1 : (4294917296#32 : BitVec 32).toInt = -50000 := by decide
  have c2 : (50000#32 : BitVec 32).toInt = 50000 := by decide
  have c3 : (0#32 : BitVec 32).toInt = 0 := by decide
  have c4 : (49999#32 : BitVec 32).toInt = 49999 := by decide
  rw [c1] at h1; rw [c2] at h2; rw [c3, c4]
  by_cases hn : IntOp.cmpi .slt s 0#32 = 1#1
  · rw [hn, select_one]
    rw [IntOp.cmpi_slt, c3] at hn
    have e : (IntOp.addi s 50000#32).toInt = s.toInt + 50000 := by
      unfold IntOp.addi
      rw [BitVec.toInt_add, c2]
      exact Int.bmod_eq_of_le (by omega) (by omega)
    omega
  · have hz : IntOp.cmpi .slt s 0#32 = 0#1 := eq_zero_of_ne_one hn
    rw [hz, select_zero]
    rw [IntOp.cmpi_slt, c3] at hn
    omega

/-- A left fold by `and` from `1` over words that are all `1` is `1`. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi 1#1 1#1 = 1#1 from rfl]
    exact ih fun n hn => h n (List.mem_cons_of_mem _ hn)

/-- A reduction by `and`, from an initial `1`, of an array whose every entry is `1` is `1` at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

/-- A select whose condition is the broadcast of an all-`1` array is its first branch. -/
theorem select_bcast_all_one {s t : Shape} {α : Type} (dims : Fin s.rank → Fin t.rank) (hb : s.BroadcastsInDim t dims)
    (c : IVec s 1) (hc : ∀ j, c j = 1#1) (a b : t.Idx → α) : select (broadcastInDim t dims hb c) a b = a := by
  funext i
  rw [select_apply]
  have e : broadcastInDim t dims hb c i = 1#1 := hc _
  rw [e, select_one]

/-- Entry `k` of the start-index column is the start word of one source word. -/
theorem startIdx_apply (D : Dims) (src : IVec SE 32) (k : SE1.Idx) :
    ∃ e : SE.Idx, startIdx D src k
      = Scalar.select (IntOp.cmpi .slt (src e) 0#32) (IntOp.addi (src e) 50000#32) (src e) :=
  ⟨_, rfl⟩

/-- Every entry of the mask column "`0 ≤ start index` and `start index ≤ 49999`" is `1` when the source words are in range. -/
theorem mask_entry (D : Dims)
    (hb2 : S0.BroadcastsInDim SE1 (![] : Fin 0 → Fin SE1.rank))
    (hb3 : S1.BroadcastsInDim S11 (![1] : Fin 1 → Fin S11.rank))
    (hb4 : S11.BroadcastsInDim SE1 (![0, 1] : Fin 2 → Fin SE1.rank))
    (src : IVec SE 32) (hsrc : ∀ e, InRange (src e)) (k : SE1.Idx) :
    andi (cmpi .sge (startIdx D src) (broadcastInDim SE1 ![] hb2 (constantI S0 32 0#32)))
      (cmpi .sle (startIdx D src) (broadcastInDim SE1 ![0, 1] hb4 (broadcastInDim S11 ![1] hb3 (constantI S1 32 49999#32)))) k
      = 1#1 := by
  obtain ⟨e, he⟩ := startIdx_apply D src k
  show IntOp.andi (IntOp.cmpi .sge (startIdx D src k) 0#32) (IntOp.cmpi .sle (startIdx D src k) 49999#32) = 1#1
  rw [he]
  exact startWord_ok _ (hsrc e)

/-- The select of a row read against a fill, under the mask "the start index is in `[0, 49999]`", is the row read. -/
theorem take_fill_eq {α : Type} (D : Dims)
    (hb2 : S0.BroadcastsInDim SE1 (![] : Fin 0 → Fin SE1.rank))
    (hb3 : S1.BroadcastsInDim S11 (![1] : Fin 1 → Fin S11.rank))
    (hb4 : S11.BroadcastsInDim SE1 (![0, 1] : Fin 2 → Fin SE1.rank))
    (hred : SE1.ReducesTo [1] SE) (hpos : 0 < S0.numel)
    (hb5 : SE.BroadcastsInDim SEH (![0] : Fin 1 → Fin SEH.rank))
    (src : IVec SE 32) (hsrc : ∀ e, InRange (src e)) (g fill : SEH.Idx → α) :
    select (broadcastInDim SEH ![0] hb5
        (Host.reduce IntOp.andi
          (andi (cmpi .sge (startIdx D src) (broadcastInDim SE1 ![] hb2 (constantI S0 32 0#32)))
            (cmpi .sle (startIdx D src) (broadcastInDim SE1 ![0, 1] hb4 (broadcastInDim S11 ![1] hb3 (constantI S1 32 49999#32)))))
          (constantI S0 1 1#1) hred hpos))
      g fill = g :=
  select_bcast_all_one _ hb5 _
    (reduce_andi_of_all _ _ hred hpos rfl (mask_entry D hb2 hb3 hb4 src hsrc)) g fill

end Cert.LinkConv

end
-- ==== Proof.HostStretch.lean ====
/- What each stretch of host operations of the idealized kernel program leaves in the buffer it is read for, from any contents `X`.
   A row read with a fill: the rows of the table named by the start indices where these lie in the table, a constant row elsewhere; with
   every source index in range it is the plain row read. An aggregation: the products of the edge features with the rows read,
   scatter-added by destination into a zero array. The bias as a row: entry (0, q) of the row is entry q of the bias. -/
import proofs.«425860_j65163243815763_3_alg».proof.Proof.Gen.KernelIdeal.Launch
import proofs.«425860_j65163243815763_3_alg».proof.Proof.Spec
import proofs.«425860_j65163243815763_3_alg».proof.Proof.TakeMask
import Idealize.ShloMosaic.Lib.StableHlo.Run
import Idealize.ShloMosaic.Lib.ValueLayout
import Idealize.ShloMosaic.Lib.Pipeline.Value

set_option maxRecDepth 16384

noncomputable section

namespace Cert.KernelIdeal.HostValue

open Idealize.ShloMosaic Idealize.ShloMosaic.TcCoe Idealize.ShloMosaic.ValueIdx
open Idealize.SL.Sem Idealize.ShloMosaic.StableHlo
open Cert.KernelIdeal Cert.KernelIdeal.Gen Cert.LinkConv

/-- The dimension records and broadcast facts the kernel program states. -/
def dims : Dims where
  gd := gather_S50000x64_S800000x1_S800000x64_1_0_n_n_0_1_164
  sd := scatter_S50000x64_S800000x1_S800000x64_1_0_0_1
  b0N := bcast_S_S50000x64
  b0E := bcast_S_S800000
  bE1 := bcast_S800000_S800000x1_0

/-- Moving a value to a typed reference's buffer type and back is the identity. -/
theorem ofBuf_toBuf {Val : EltTy → Type} {T : BufTy} (x : TRef sig T) (v : T.Contents Val) : x.ofBuf (x.toBuf v) = v := by
  obtain ⟨r, h, _, _⟩ := x
  subst h
  rfl

/-! ## The filled row reads (any float instance: nothing here depends on what a float is) -/

section

variable {F : FTy → Type} [FloatOps F]

set_option maxHeartbeats 2000000 in
/-- First layer, first relation: the filled row read is the plain row read when the source indices are in range. -/
theorem take0 (X : Valuation τ sig (Elt F)) (h : Vec F S50000x64 .f32) (s : IVec S800000 32)
    (et : X (Proc.devRef .tc main_arg0) = h) (es : X (Proc.devRef .tc main_arg7) = s) (hs : ∀ e, InRange (s e)) :
    (StableHlo.after hostOps0 X (Proc.devRef .tc main_v0) : Vec F S800000x64 .f32) = Host.gather dims.gd h (startIdx dims s) := by
  have et' : (TRef.of main_arg0 : TRef sig ⟨S50000x64, .f32⟩).ofBuf (X (Proc.devRef .tc main_arg0)) = h := et
  have es' : (TRef.of main_arg7 : TRef sig ⟨S800000, .i32⟩).ofBuf (X (Proc.devRef .tc main_arg7)) = s := es
  have key : (TRef.of main_v0 : TRef sig ⟨S800000x64, .f32⟩).ofBuf (StableHlo.after hostOps0 X (Proc.devRef .tc main_v0))
      = Host.gather dims.gd h (startIdx dims s) := by
    refine Eq.trans ?_
      (take_fill_eq dims bcast_S_S800000x1 bcast_S1_S1x1_1 bcast_S1x1_S800000x1_0_1 reducesTo_S800000x1_S800000_d1 h_S_
        bcast_S800000_S800000x64_0 s hs (Host.gather dims.gd h (startIdx dims s))
        (broadcastInDim S800000x64 ![] bcast_S_S800000x64 (constant (F := F) S_ .f32 0x7FC00000#32)))
    simp only [hostOps0]
    after_results
    simp only [ofBuf_toBuf, et', es']
    rfl
  exact key

set_option maxHeartbeats 2000000 in
/-- First layer, second relation: the filled row read is the plain row read when the source indices are in range. -/
theorem take0_2 (X : Valuation τ sig (Elt F)) (h : Vec F S50000x64 .f32) (s : IVec S800000 32)
    (et : X (Proc.devRef .tc main_arg0) = h) (es : X (Proc.devRef .tc main_arg9) = s) (hs : ∀ e, InRange (s e)) :
    (StableHlo.after hostOps0_2 X (Proc.devRef .tc main_v5) : Vec F S800000x64 .f32) = Host.gather dims.gd h (startIdx dims s) := by
  have et' : (TRef.of main_arg0 : TRef sig ⟨S50000x64, .f32⟩).ofBuf (X (Proc.devRef .tc main_arg0)) = h := et
  have es' : (TRef.of main_arg9 : TRef sig ⟨S800000, .i32⟩).ofBuf (X (Proc.devRef .tc main_arg9)) = s := es
  have key : (TRef.of main_v5 : TRef sig ⟨S800000x64, .f32⟩).ofBuf (StableHlo.after hostOps0_2 X (Proc.devRef .tc main_v5))
      = Host.gather dims.gd h (startIdx dims s) := by
    refine Eq.trans ?_
      (take_fill_eq dims bcast_S_S800000x1 bcast_S1_S1x1_1 bcast_S1x1_S800000x1_0_1 reducesTo_S800000x1_S800000_d1 h_S_
        bcast_S800000_S800000x64_0 s hs (Host.gather dims.gd h (startIdx dims s))
        (broadcastInDim S800000x64 ![] bcast_S_S800000x64 (constant (F := F) S_ .f32 0x7FC00000#32)))
    simp only [hostOps0_2]
    after_results
    simp only [ofBuf_toBuf, et', es']
    rfl
  exact key

set_option maxHeartbeats 2000000 in
/-- Second layer, first relation: the rows are read from the first kernel call's output. -/
theorem take1 (X : Valuation τ sig (Elt F)) (h : Vec F S50000x64 .f32) (s : IVec S800000 32)
    (et : X (Proc.devRef .tc main_v11) = h) (es : X (Proc.devRef .tc main_arg7) = s) (hs : ∀ e, InRange (s e)) :
    (StableHlo.after hostOps1 X (Proc.devRef .tc main_v12) : Vec F S800000x64 .f32) = Host.gather dims.gd h (startIdx dims s) := by
  have et' : (TRef.of main_v11 : TRef sig ⟨S50000x64, .f32⟩).ofBuf (X (Proc.devRef .tc main_v11)) = h := et
  have es' : (TRef.of main_arg7 : TRef sig ⟨S800000, .i32⟩).ofBuf (X (Proc.devRef .tc main_arg7)) = s := es
  have key : (TRef.of main_v12 : TRef sig ⟨S800000x64, .f32⟩).ofBuf (StableHlo.after hostOps1 X (Proc.devRef .tc main_v12))
      = Host.gather dims.gd h (startIdx dims s) := by
    refine Eq.trans ?_
      (take_fill_eq dims bcast_S_S800000x1 bcast_S1_S1x1_1 bcast_S1x1_S800000x1_0_1 reducesTo_S800000x1_S800000_d1 h_S_
        bcast_S800000_S800000x64_0 s hs (Host.gather dims.gd h (startIdx dims s))
        (broadcastInDim S800000x64 ![] bcast_S_S800000x64 (constant (F := F) S_ .f32 0x7FC00000#32)))
    simp only [hostOps1]
    after_results
    simp only [ofBuf_toBuf, et', es']
    rfl
  exact key

set_option maxHeartbeats 2000000 in
/-- Second layer, second relation: the rows are read from the first kernel call's output. -/
theorem take1_2 (X : Valuation τ sig (Elt F)) (h : Vec F S50000x64 .f32) (s : IVec S800000 32)
    (et : X (Proc.devRef .tc main_v11) = h) (es : X (Proc.devRef .tc main_arg9) = s) (hs : ∀ e, InRange (s e)) :
    (StableHlo.after hostOps1_2 X (Proc.devRef .tc main_v17) : Vec F S800000x64 .f32) = Host.gather dims.gd h (startIdx dims s) := by
  have et' : (TRef.of main_v11 : TRef sig ⟨S50000x64, .f32⟩).ofBuf (X (Proc.devRef .tc main_v11)) = h := et
  have es' : (TRef.of main_arg9 : TRef sig ⟨S800000, .i32⟩).ofBuf (X (Proc.devRef .tc main_arg9)) = s := es
  have key : (TRef.of main_v17 : TRef sig ⟨S800000x64, .f32⟩).ofBuf (StableHlo.after hostOps1_2 X (Proc.devRef .tc main_v17))
      = Host.gather dims.gd h (startIdx dims s) := by
    refine Eq.trans ?_
      (take_fill_eq dims bcast_S_S800000x1 bcast_S1_S1x1_1 bcast_S1x1_S800000x1_0_1 reducesTo_S800000x1_S800000_d1 h_S_
        bcast_S800000_S800000x64_0 s hs (Host.gather dims.gd h (startIdx dims s))
        (broadcastInDim S800000x64 ![] bcast_S_S800000x64 (constant (F := F) S_ .f32 0x7FC00000#32)))
    simp only [hostOps1_2]
    after_results
    simp only [ofBuf_toBuf, et', es']
    rfl
  exact key

end

/-! ## The aggregations and the bias rows, over the extended reals -/

/-- First layer, first relation: the products with the edge features, scatter-added by destination into a zero array. -/
theorem agg0_1 (X : Valuation τ sig (Elt Ideal)) (h : Vec Ideal S50000x64 .f32) (feat : Vec Ideal S800000x64 .f32) (src dst : IVec S800000 32)
    (ef : X (Proc.devRef .tc main_arg1) = feat) (ed : X (Proc.devRef .tc main_arg8) = dst)
    (eg : X (Proc.devRef .tc main_v0) = Host.gather dims.gd h (startIdx dims src)) :
    (StableHlo.after hostOps0_1 X (Proc.devRef .tc main_v4) : Vec Ideal S50000x64 .f32) = agg dims h feat src dst := by
  subst ef ed
  simp only [hostOps0_1]
  after_results
  rw [eg]
  rfl

/-- First layer, second relation: the products with the edge features, scatter-added by destination into a zero array. -/
theorem agg0_3 (X : Valuation τ sig (Elt Ideal)) (h : Vec Ideal S50000x64 .f32) (feat : Vec Ideal S800000x64 .f32) (src dst : IVec S800000 32)
    (ef : X (Proc.devRef .tc main_arg2) = feat) (ed : X (Proc.devRef .tc main_arg10) = dst)
    (eg : X (Proc.devRef .tc main_v5) = Host.gather dims.gd h (startIdx dims src)) :
    (StableHlo.after hostOps0_3 X (Proc.devRef .tc main_v9) : Vec Ideal S50000x64 .f32) = agg dims h feat src dst := by
  subst ef ed
  simp only [hostOps0_3]
  after_results
  rw [eg]
  rfl

/-- Second layer, first relation: the same aggregate over the first kernel call's output. -/
theorem agg1_1 (X : Valuation τ sig (Elt Ideal)) (h : Vec Ideal S50000x64 .f32) (feat : Vec Ideal S800000x64 .f32) (src dst : IVec S800000 32)
    (ef : X (Proc.devRef .tc main_arg1) = feat) (ed : X (Proc.devRef .tc main_arg8) = dst)
    (eg : X (Proc.devRef .tc main_v12) = Host.gather dims.gd h (startIdx dims src)) :
    (StableHlo.after hostOps1_1 X (Proc.devRef .tc main_v16) : Vec Ideal S50000x64 .f32) = agg dims h feat src dst := by
  subst ef ed
  simp only [hostOps1_1]
  after_results
  rw [eg]
  rfl

/-- Second layer, second relation: the same aggregate over the first kernel call's output. -/
theorem agg1_3 (X : Valuation τ sig (Elt Ideal)) (h : Vec Ideal S50000x64 .f32) (feat : Vec Ideal S800000x64 .f32) (src dst : IVec S800000 32)
    (ef : X (Proc.devRef .tc main_arg2) = feat) (ed : X (Proc.devRef .tc main_arg10) = dst)
    (eg : X (Proc.devRef .tc main_v17) = Host.gather dims.gd h (startIdx dims src)) :
    (StableHlo.after hostOps1_3 X (Proc.devRef .tc main_v21) : Vec Ideal S50000x64 .f32) = agg dims h feat src dst := by
  subst ef ed
  simp only [hostOps1_3]
  after_results
  rw [eg]
  rfl

/-- The first layer's bias as a row `[1, 64]`: entry `(0, q)` is entry `q`. -/
theorem bias0_3 (X : Valuation τ sig (Elt Ideal)) (b : Vec Ideal S64 .f32) (eb : X (Proc.devRef .tc main_arg4) = b) (q : Fin 64) :
    (StableHlo.after hostOps0_3 X (Proc.devRef .tc main_v10) : Vec Ideal S1x64 .f32) (ix2 0 q) = b (ix1 q) := by
  subst eb
  simp only [hostOps0_3]
  after_results
  refine (shapeCast_addUnit_apply (α := Elt Ideal .f32) ![64] _ _ (ix2 0 q)).trans ?_
  congr 1
  funext a
  match a with
  | ⟨0, _⟩ => rfl

/-- The second layer's bias as a row `[1, 64]`: entry `(0, q)` is entry `q`. -/
theorem bias1_3 (X : Valuation τ sig (Elt Ideal)) (b : Vec Ideal S64 .f32) (eb : X (Proc.devRef .tc main_arg6) = b) (q : Fin 64) :
    (StableHlo.after hostOps1_3 X (Proc.devRef .tc main_v22) : Vec Ideal S1x64 .f32) (ix2 0 q) = b (ix1 q) := by
  subst eb
  simp only [hostOps1_3]
  after_results
  refine (shapeCast_addUnit_apply (α := Elt Ideal .f32) ![64] _ _ (ix2 0 q)).trans ?_
  congr 1
  funext a
  match a with
  | ⟨0, _⟩ => rfl

end Cert.KernelIdeal.HostValue

end
-- ==== Proof.KernelBody.lean ====
/-
  The kernel body's one stored value, read at an entry.

  The body loads the weight block `W : [128, 64]`, the two aggregate blocks `a₁`, `a₂ : [5000, 64]`, the bias row `b : [1, 64]` and the
  feature block `h : [5000, 64]`, and stores `h + max ((a₁ · W[0:64] + a₂ · W[64:128]) + b) 0`. The changes of float format before the two
  matrix products are the identity on the extended reals, each product into a zero accumulator is a plain sum over the 64 contracted
  entries, and the rest is entrywise: at entry `(p, q)` the stored value is `updAt a₁ a₂ h W b p q`.
-/
import proofs.«425860_j65163243815763_3_alg».proof.Proof.Gen.KernelIdeal.Skeleton
import proofs.«425860_j65163243815763_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen Cert.LinkConv

/-! ## The three re-laid pieces at an entry: the two halves of `W` and the bias row -/

/-- The upper 64 rows of `W`: entry `(k, q)` of the cut is entry `(k, q)` of `W`. -/
theorem top_rows (W : FVec Ideal S128x64 .f32) (k q : Fin 64) :
    extractStridedSlice S64x64 ![0, 0] W slices_S128x64_o0_0_S64x64 (ix2 k q) = W (ix2 (Fin.castAdd 64 k) q) :=
  slice2_axis0_apply 0 W slices_S128x64_o0_0_S64x64 k q (Fin.castAdd 64 k) (Nat.zero_add _).symm

/-- The lower 64 rows of `W`: entry `(k, q)` of the cut is entry `(64 + k, q)` of `W`. -/
theorem bottom_rows (W : FVec Ideal S128x64 .f32) (k q : Fin 64) :
    extractStridedSlice S64x64 ![64, 0] W slices_S128x64_o64_0_S64x64 (ix2 k q) = W (ix2 (Fin.natAdd 64 k) q) :=
  slice2_axis0_apply 64 W slices_S128x64_o64_0_S64x64 k q (Fin.natAdd 64 k) rfl

/-- The bias row laid along every row of the block: entry `(p, q)` is entry `q` of the row. -/
theorem bias_row (b : FVec Ideal S1x64 .f32) (p : Fin 5000) (q : Fin 64) :
    broadcastTo S5000x64 b broadcasts_S1x64_S5000x64 (ix2 p q) = b (ix2 0 q) :=
  broadcastTo_1b_ab_apply b broadcasts_S1x64_S5000x64 p q

/-! ## The operand entries of the `[5000, 64] · [64, 64]` product

At output entry `i` and contracted position `c` the left operand is read at `(i 0, c)` and the right at `(c, i 1)`. -/

theorem left_row (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem left_col (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
theorem right_row (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
theorem right_col (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A `[5000, 64] · [64, 64]` product into a zero accumulator, at entry `(p, q)`: the sum over the 64 contracted entries. -/
theorem product_at {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  show FloatOps.matmul dot_S5000x64_S64x64_S5000x64_1_0_0_1_n_n none l r (constant (F := Ideal) S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact left_row _ _
    | ⟨1, _⟩ => exact (left_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (right_row _ _).trans hk
    | ⟨1, _⟩ => exact right_col _ _)
  rw [el, er]

/-- The zero word of the 32-bit format is the extended real `0`. -/
theorem zero_word : (FloatOps.ofBits (F := Ideal) .f32 0x00000000#32 : EReal) = 0 := Ideal.ofBits_zero_f32

/-- The first kernel call's stored value at entry `(p, q)` of the block. -/
theorem pay0_apply (W : Vec Ideal S128x64 .f32) (a1 a2 : Vec Ideal S5000x64 .f32) (b : Vec Ideal S1x64 .f32) (h : Vec Ideal S5000x64 .f32)
    (p : Fin 5000) (q : Fin 64) :
    k0_pay1 (F := Ideal) W a1 a2 b h (ix2 p q) = updAt a1 a2 h W (fun q' => b (ix2 0 q')) p q := by
  unfold k0_pay1
  simp only [addf_apply, maximumf_apply, broadcast_apply, shapeCast_self, product_at, truncf_apply, top_rows, bottom_rows,
    bias_row, zero_word]
  rfl

/-- The second kernel call's stored value at entry `(p, q)` of the block. -/
theorem pay1_apply (W : Vec Ideal S128x64 .f32) (a1 a2 : Vec Ideal S5000x64 .f32) (b : Vec Ideal S1x64 .f32) (h : Vec Ideal S5000x64 .f32)
    (p : Fin 5000) (q : Fin 64) :
    k1_pay1 (F := Ideal) W a1 a2 b h (ix2 p q) = updAt a1 a2 h W (fun q' => b (ix2 0 q')) p q := by
  unfold k1_pay1
  simp only [addf_apply, maximumf_apply, broadcast_apply, shapeCast_self, product_at, truncf_apply, top_rows, bottom_rows,
    bias_row, zero_word]
  rfl

end Cert.KernelIdeal.Body

end
-- ==== Proof.KernelRegion.lean ====
/-
  What each kernel call leaves in its output array, as one function of the arrays it finds.

  The grid has ten points; point `t` fetches rows `5000·t … 5000·t + 4999` of the two aggregates and of the node features, the whole weight
  matrix and the bias row, and writes back the same rows of the output. An entry of the update depends only on its own row of the row-blocked
  operands, so what point `t` writes back is the restriction to its rows of `upd` of the whole arrays; the ten row blocks cover the output.
-/
import proofs.«425860_j65163243815763_3_alg».proof.Proof.Gen.KernelIdeal.Frame
import proofs.«425860_j65163243815763_3_alg».proof.Proof.KernelBody
import Idealize.ShloMosaic.Lib.Pipeline.Value

set_option maxRecDepth 16384

noncomputable section

namespace Cert.KernelIdeal.Region

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.LinkConv

variable (V : (c : Dev nD) → (b : Ref sig .tc) → Buf (Elt Ideal) ((c : Thread nD τ).loc b))

/-- The zero offsets of an access to a whole buffer, as a constant function. -/
theorem zero_off : (![0, 0] : Fin 2 → Nat) = fun _ => 0 := funext fun a => by fin_cases a <;> rfl

/-- A block computation `pay` whose entry `(p, q)` is `updAt` of its operand blocks, run on blocks that are rows `5000·n …` of the
    row-blocked arrays together with the whole weight matrix and bias row, gives at entry `j` the update of the whole arrays at the entry `i`
    with row `5000·n + j₀` and column `j₁`: an entry of the update reads only its own row of the aggregates and of the node features. -/
theorem stored_eq
    (pay : Vec Ideal S128x64 .f32 → Vec Ideal S5000x64 .f32 → Vec Ideal S5000x64 .f32 → Vec Ideal S1x64 .f32 → Vec Ideal S5000x64 .f32
      → Vec Ideal S5000x64 .f32)
    (hpay : ∀ (W : Vec Ideal S128x64 .f32) (a1 a2 : Vec Ideal S5000x64 .f32) (b : Vec Ideal S1x64 .f32) (h : Vec Ideal S5000x64 .f32)
      (p : Fin 5000) (q : Fin 64), pay W a1 a2 b h (ix2 p q) = updAt a1 a2 h W (fun q' => b (ix2 0 q')) p q)
    (a1 a2 h : Vec Ideal S50000x64 .f32) (W : Vec Ideal S128x64 .f32) (b : Vec Ideal S1x64 .f32)
    (x0 x1 x2 : Vec Ideal S5000x64 .f32) (x3 : Vec Ideal S128x64 .f32) (x4 : Vec Ideal S1x64 .f32) (n : Nat)
    (h0 : ∀ (x : S5000x64.Idx) (k : S50000x64.Idx), (k 0).val = n * 5000 + (x 0).val → (k 1).val = (x 1).val → x0 x = a1 k)
    (h1 : ∀ (x : S5000x64.Idx) (k : S50000x64.Idx), (k 0).val = n * 5000 + (x 0).val → (k 1).val = (x 1).val → x1 x = a2 k)
    (h2 : ∀ (x : S5000x64.Idx) (k : S50000x64.Idx), (k 0).val = n * 5000 + (x 0).val → (k 1).val = (x 1).val → x2 x = h k)
    (h3 : x3 = W) (h4 : x4 = b)
    (j : S5000x64.Idx) (i : S50000x64.Idx) (hi0 : (i 0).val = n * 5000 + (j 0).val) (hi1 : (i 1).val = (j 1).val) :
    pay x3 x0 x1 x4 x2 j = upd (n := 50000) a1 a2 h W (fun q => b (ix2 0 q)) i := by
  subst h3 h4
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q = q' := (Fin.ext hi1).symm
  rw [hpay, upd_ix2]
  unfold updAt
  rw [h2 (ix2 p q) (ix2 r q) hi0 rfl]
  simp only [fun k => h0 (ix2 p k) (ix2 r k) hi0 rfl, fun k => h1 (ix2 p k) (ix2 r k) hi0 rfl]

/-! ## The first kernel call -/

/-- The block indices of the six windows at grid point `t`: the row-blocked windows sit at block `(t, 0)`, the weight matrix and the
    bias row at block `(0, 0)`. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry `x` of the first aggregate's block at point `t` is the entry of the first aggregate with row `5000·t + x₀` and column `x₁`. -/
theorem agg1_block0 (c : Dev nD) (t : Fin cfg0.N) (x : S5000x64.Idx) (k : S50000x64.Idx)
    (hk0 : (k 0).val = t.val * 5000 + (x 0).val) (hk1 : (k 1).val = (x 1).val) :
    (iblk0 V c 0 t : Vec Ideal S5000x64 .f32) x = (V c main_v4 : Vec Ideal S50000x64 .f32) k := by
  obtain ⟨e00, e01, e10, e11, e20, e21, -⟩ := index0 t
  unfold iblk0
  rw [View.read_apply]
  show V c main_v4 _ = V c main_v4 _
  congr 1
  funext a
  apply Fin.ext
  match a with
  | ⟨0, _⟩ => show win0_0.index t (0 : Fin 2) * 5000 + 1 * (x 0).val = (k 0).val; omega
  | ⟨1, _⟩ => show win0_0.index t (1 : Fin 2) * 64 + 1 * (x 1).val = (k 1).val; omega

/-- Entry `x` of the second aggregate's block at point `t` is the entry of the second aggregate with row `5000·t + x₀` and column `x₁`. -/
theorem agg2_block0 (c : Dev nD) (t : Fin cfg0.N) (x : S5000x64.Idx) (k : S50000x64.Idx)
    (hk0 : (k 0).val = t.val * 5000 + (x 0).val) (hk1 : (k 1).val = (x 1).val) :
    (iblk0 V c 1 t : Vec Ideal S5000x64 .f32) x = (V c main_v9 : Vec Ideal S50000x64 .f32) k := by
  obtain ⟨e00, e01, e10, e11, e20, e21, -⟩ := index0 t
  unfold iblk0
  rw [View.read_apply]
  show V c main_v9 _ = V c main_v9 _
  congr 1
  funext a
  apply Fin.ext
  match a with
  | ⟨0, _⟩ => show win0_1.index t (0 : Fin 2) * 5000 + 1 * (x 0).val = (k 0).val; omega
  | ⟨1, _⟩ => show win0_1.index t (1 : Fin 2) * 64 + 1 * (x 1).val = (k 1).val; omega

/-- Entry `x` of the node features's block at point `t` is the entry of the node features with row `5000·t + x₀` and column `x₁`. -/
theorem feat_block0 (c : Dev nD) (t : Fin cfg0.N) (x : S5000x64.Idx) (k : S50000x64.Idx)
    (hk0 : (k 0).val = t.val * 5000 + (x 0).val) (hk1 : (k 1).val = (x 1).val) :
    (iblk0 V c 2 t : Vec Ideal S5000x64 .f32) x = (V c main_arg0 : Vec Ideal S50000x64 .f32) k := by
  obtain ⟨e00, e01, e10, e11, e20, e21, -⟩ := index0 t
  unfold iblk0
  rw [View.read_apply]
  show V c main_arg0 _ = V c main_arg0 _
  congr 1
  funext a
  apply Fin.ext
  match a with
  | ⟨0, _⟩ => show win0_2.index t (0 : Fin 2) * 5000 + 1 * (x 0).val = (k 0).val; omega
  | ⟨1, _⟩ => show win0_2.index t (1 : Fin 2) * 64 + 1 * (x 1).val = (k 1).val; omega

/-- The weight matrix's block at every point is the whole matrix: its block index is `(0, 0)` and the block has the array's shape. -/
theorem weight_block0 (c : Dev nD) (t : Fin cfg0.N) :
    (iblk0 V c 3 t : Vec Ideal S128x64 .f32) = (V c main_arg3 : Vec Ideal S128x64 .f32) := by
  obtain ⟨-, -, -, -, -, -, e30, e31, e40, e41, -⟩ := index0 t
  funext x
  unfold iblk0
  rw [View.read_apply]
  show V c main_arg3 _ = V c main_arg3 x
  congr 1
  funext a
  apply Fin.ext
  match a with
  | ⟨0, _⟩ => show win0_3.index t (0 : Fin 2) * 128 + 1 * (x 0).val = (x 0).val; omega
  | ⟨1, _⟩ => show win0_3.index t (1 : Fin 2) * 64 + 1 * (x 1).val = (x 1).val; omega

/-- The bias row's block at every point is the whole row: its block index is `(0, 0)` and the block has the array's shape. -/
theorem bias_block0 (c : Dev nD) (t : Fin cfg0.N) :
    (iblk0 V c 4 t : Vec Ideal S1x64 .f32) = (V c main_v10 : Vec Ideal S1x64 .f32) := by
  obtain ⟨-, -, -, -, -, -, e30, e31, e40, e41, -⟩ := index0 t
  funext x
  unfold iblk0
  rw [View.read_apply]
  show V c main_v10 _ = V c main_v10 x
  congr 1
  funext a
  apply Fin.ext
  match a with
  | ⟨0, _⟩ => show win0_4.index t (0 : Fin 2) * 1 + 1 * (x 0).val = (x 0).val; omega
  | ⟨1, _⟩ => show win0_4.index t (1 : Fin 2) * 64 + 1 * (x 1).val = (x 1).val; omega

/-- What grid point `t` writes back is its block of the update of the whole arrays. -/
theorem flushed0_eq (c : Dev nD) (t : Fin cfg0.N) :
    (dat0 (F := Ideal) V c).flushed 5 t = ((cfg0.win 5).blk t).view.read (Elt Ideal)
      (upd (n := 50000) (V c main_v4 : Vec Ideal S50000x64 .f32) (V c main_v9 : Vec Ideal S50000x64 .f32)
        (V c main_arg0 : Vec Ideal S50000x64 .f32) (V c main_arg3 : Vec Ideal S128x64 .f32)
        (fun q => (V c main_v10 : Vec Ideal S1x64 .f32) (ix2 0 q))) := by
  show (cfg0.win 5).cut (grid0.coords t) ((dat0 V c).after 5 t) = _
  rw [after0_5]
  unfold out0_5
  rw [View.canon_unit_zero zero_off]
  simp only [View.ld_unit_zero (S := S5000x64) zero_off, View.ld_unit_zero (S := S128x64) zero_off,
    View.ld_unit_zero (S := S1x64) zero_off]
  obtain ⟨-, -, -, -, -, -, -, -, -, -, e50, e51⟩ := index0 t
  funext j
  rw [View.read_apply]
  refine stored_eq (k0_pay1 (F := Ideal)) Body.pay0_apply
    (V c main_v4) (V c main_v9) (V c main_arg0) (V c main_arg3) (V c main_v10)
    (iblk0 V c 0 t) (iblk0 V c 1 t) (iblk0 V c 2 t) (iblk0 V c 3 t) (iblk0 V c 4 t) t.val
    (agg1_block0 V c t) (agg2_block0 V c t) (feat_block0 V c t) (weight_block0 V c t) (bias_block0 V c t)
    j (((cfg0.win 5).blk t).view.emb j) ?_ ?_
  · show win0_5.index t (0 : Fin 2) * 5000 + 1 * (j 0).val = t.val * 5000 + (j 0).val
    omega
  · show win0_5.index t (1 : Fin 2) * 64 + 1 * (j 1).val = (j 1).val
    omega

/-- An entry of the output array lies in point `t`'s block iff each of its coordinates lies in the block's range on that axis. -/
theorem mem_block0 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v11).slice (win0_5.rect t)).set ↔ _
  rw [View.set_slice_whole, Rect.mem_set_unit]
  exact Iff.rfl

/-- Row `r` of the output lies in the block of grid point `r / 5000`, and every point writes its block back. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, e50, e51⟩ := index0 t
  refine ⟨t, flush0_5 t, ?_⟩
  rw [mem_block0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The first kernel call's output array after its last grid point. -/
theorem final0 (c : Dev nD) :
    ((dat0 (F := Ideal) V c).arrAt 5 cfg0.N : Vec Ideal S50000x64 .f32)
      = upd (n := 50000) (V c main_v4 : Vec Ideal S50000x64 .f32) (V c main_v9 : Vec Ideal S50000x64 .f32)
          (V c main_arg0 : Vec Ideal S50000x64 .f32) (V c main_arg3 : Vec Ideal S128x64 .f32)
          (fun q => (V c main_v10 : Vec Ideal S1x64 .f32) (ix2 0 q)) :=
  (dat0 (F := Ideal) V c).arrAt_eq_of_cover 5
    (upd (n := 50000) (V c main_v4 : Vec Ideal S50000x64 .f32) (V c main_v9 : Vec Ideal S50000x64 .f32)
      (V c main_arg0 : Vec Ideal S50000x64 .f32) (V c main_arg3 : Vec Ideal S128x64 .f32)
      (fun q => (V c main_v10 : Vec Ideal S1x64 .f32) (ix2 0 q)))
    (fun t _ => flushed0_eq V c t) cover0

/-! ## The second kernel call -/

/-- The block indices of the six windows at grid point `t`: the row-blocked windows sit at block `(t, 0)`, the weight matrix and the
    bias row at block `(0, 0)`. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry `x` of the first aggregate's block at point `t` is the entry of the first aggregate with row `5000·t + x₀` and column `x₁`. -/
theorem agg1_block1 (c : Dev nD) (t : Fin cfg1.N) (x : S5000x64.Idx) (k : S50000x64.Idx)
    (hk0 : (k 0).val = t.val * 5000 + (x 0).val) (hk1 : (k 1).val = (x 1).val) :
    (iblk1 V c 0 t : Vec Ideal S5000x64 .f32) x = (V c main_v16 : Vec Ideal S50000x64 .f32) k := by
  obtain ⟨e00, e01, e10, e11, e20, e21, -⟩ := index1 t
  unfold iblk1
  rw [View.read_apply]
  show V c main_v16 _ = V c main_v16 _
  congr 1
  funext a
  apply Fin.ext
  match a with
  | ⟨0, _⟩ => show win1_0.index t (0 : Fin 2) * 5000 + 1 * (x 0).val = (k 0).val; omega
  | ⟨1, _⟩ => show win1_0.index t (1 : Fin 2) * 64 + 1 * (x 1).val = (k 1).val; omega

/-- Entry `x` of the second aggregate's block at point `t` is the entry of the second aggregate with row `5000·t + x₀` and column `x₁`. -/
theorem agg2_block1 (c : Dev nD) (t : Fin cfg1.N) (x : S5000x64.Idx) (k : S50000x64.Idx)
    (hk0 : (k 0).val = t.val * 5000 + (x 0).val) (hk1 : (k 1).val = (x 1).val) :
    (iblk1 V c 1 t : Vec Ideal S5000x64 .f32) x = (V c main_v21 : Vec Ideal S50000x64 .f32) k := by
  obtain ⟨e00, e01, e10, e11, e20, e21, -⟩ := index1 t
  unfold iblk1
  rw [View.read_apply]
  show V c main_v21 _ = V c main_v21 _
  congr 1
  funext a
  apply Fin.ext
  match a with
  | ⟨0, _⟩ => show win1_1.index t (0 : Fin 2) * 5000 + 1 * (x 0).val = (k 0).val; omega
  | ⟨1, _⟩ => show win1_1.index t (1 : Fin 2) * 64 + 1 * (x 1).val = (k 1).val; omega

/-- Entry `x` of the node features's block at point `t` is the entry of the node features with row `5000·t + x₀` and column `x₁`. -/
theorem feat_block1 (c : Dev nD) (t : Fin cfg1.N) (x : S5000x64.Idx) (k : S50000x64.Idx)
    (hk0 : (k 0).val = t.val * 5000 + (x 0).val) (hk1 : (k 1).val = (x 1).val) :
    (iblk1 V c 2 t : Vec Ideal S5000x64 .f32) x = (V c main_v11 : Vec Ideal S50000x64 .f32) k := by
  obtain ⟨e00, e01, e10, e11, e20, e21, -⟩ := index1 t
  unfold iblk1
  rw [View.read_apply]
  show V c main_v11 _ = V c main_v11 _
  congr 1
  funext a
  apply Fin.ext
  match a with
  | ⟨0, _⟩ => show win1_2.index t (0 : Fin 2) * 5000 + 1 * (x 0).val = (k 0).val; omega
  | ⟨1, _⟩ => show win1_2.index t (1 : Fin 2) * 64 + 1 * (x 1).val = (k 1).val; omega

/-- The weight matrix's block at every point is the whole matrix: its block index is `(0, 0)` and the block has the array's shape. -/
theorem weight_block1 (c : Dev nD) (t : Fin cfg1.N) :
    (iblk1 V c 3 t : Vec Ideal S128x64 .f32) = (V c main_arg5 : Vec Ideal S128x64 .f32) := by
  obtain ⟨-, -, -, -, -, -, e30, e31, e40, e41, -⟩ := index1 t
  funext x
  unfold iblk1
  rw [View.read_apply]
  show V c main_arg5 _ = V c main_arg5 x
  congr 1
  funext a
  apply Fin.ext
  match a with
  | ⟨0, _⟩ => show win1_3.index t (0 : Fin 2) * 128 + 1 * (x 0).val = (x 0).val; omega
  | ⟨1, _⟩ => show win1_3.index t (1 : Fin 2) * 64 + 1 * (x 1).val = (x 1).val; omega

/-- The bias row's block at every point is the whole row: its block index is `(0, 0)` and the block has the array's shape. -/
theorem bias_block1 (c : Dev nD) (t : Fin cfg1.N) :
    (iblk1 V c 4 t : Vec Ideal S1x64 .f32) = (V c main_v22 : Vec Ideal S1x64 .f32) := by
  obtain ⟨-, -, -, -, -, -, e30, e31, e40, e41, -⟩ := index1 t
  funext x
  unfold iblk1
  rw [View.read_apply]
  show V c main_v22 _ = V c main_v22 x
  congr 1
  funext a
  apply Fin.ext
  match a with
  | ⟨0, _⟩ => show win1_4.index t (0 : Fin 2) * 1 + 1 * (x 0).val = (x 0).val; omega
  | ⟨1, _⟩ => show win1_4.index t (1 : Fin 2) * 64 + 1 * (x 1).val = (x 1).val; omega

/-- What grid point `t` writes back is its block of the update of the whole arrays. -/
theorem flushed1_eq (c : Dev nD) (t : Fin cfg1.N) :
    (dat1 (F := Ideal) V c).flushed 5 t = ((cfg1.win 5).blk t).view.read (Elt Ideal)
      (upd (n := 50000) (V c main_v16 : Vec Ideal S50000x64 .f32) (V c main_v21 : Vec Ideal S50000x64 .f32)
        (V c main_v11 : Vec Ideal S50000x64 .f32) (V c main_arg5 : Vec Ideal S128x64 .f32)
        (fun q => (V c main_v22 : Vec Ideal S1x64 .f32) (ix2 0 q))) := by
  show (cfg1.win 5).cut (grid1.coords t) ((dat1 V c).after 5 t) = _
  rw [after1_5]
  unfold out1_5
  rw [View.canon_unit_zero zero_off]
  simp only [View.ld_unit_zero (S := S5000x64) zero_off, View.ld_unit_zero (S := S128x64) zero_off,
    View.ld_unit_zero (S := S1x64) zero_off]
  obtain ⟨-, -, -, -, -, -, -, -, -, -, e50, e51⟩ := index1 t
  funext j
  rw [View.read_apply]
  refine stored_eq (k1_pay1 (F := Ideal)) Body.pay1_apply
    (V c main_v16) (V c main_v21) (V c main_v11) (V c main_arg5) (V c main_v22)
    (iblk1 V c 0 t) (iblk1 V c 1 t) (iblk1 V c 2 t) (iblk1 V c 3 t) (iblk1 V c 4 t) t.val
    (agg1_block1 V c t) (agg2_block1 V c t) (feat_block1 V c t) (weight_block1 V c t) (bias_block1 V c t)
    j (((cfg1.win 5).blk t).view.emb j) ?_ ?_
  · show win1_5.index t (0 : Fin 2) * 5000 + 1 * (j 0).val = t.val * 5000 + (j 0).val
    omega
  · show win1_5.index t (1 : Fin 2) * 64 + 1 * (j 1).val = (j 1).val
    omega

/-- An entry of the output array lies in point `t`'s block iff each of its coordinates lies in the block's range on that axis. -/
theorem mem_block1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v23).slice (win1_5.rect t)).set ↔ _
  rw [View.set_slice_whole, Rect.mem_set_unit]
  exact Iff.rfl

/-- Row `r` of the output lies in the block of grid point `r / 5000`, and every point writes its block back. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e50, e51⟩ := index1 t
  refine ⟨t, flush1_5 t, ?_⟩
  rw [mem_block1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The second kernel call's output array after its last grid point. -/
theorem final1 (c : Dev nD) :
    ((dat1 (F := Ideal) V c).arrAt 5 cfg1.N : Vec Ideal S50000x64 .f32)
      = upd (n := 50000) (V c main_v16 : Vec Ideal S50000x64 .f32) (V c main_v21 : Vec Ideal S50000x64 .f32)
          (V c main_v11 : Vec Ideal S50000x64 .f32) (V c main_arg5 : Vec Ideal S128x64 .f32)
          (fun q => (V c main_v22 : Vec Ideal S1x64 .f32) (ix2 0 q)) :=
  (dat1 (F := Ideal) V c).arrAt_eq_of_cover 5
    (upd (n := 50000) (V c main_v16 : Vec Ideal S50000x64 .f32) (V c main_v21 : Vec Ideal S50000x64 .f32)
      (V c main_v11 : Vec Ideal S50000x64 .f32) (V c main_arg5 : Vec Ideal S128x64 .f32)
      (fun q => (V c main_v22 : Vec Ideal S1x64 .f32) (ix2 0 q)))
    (fun t _ => flushed1_eq V c t) cover1

end Cert.KernelIdeal.Region

end
-- ==== Proof.KernelHost.lean ====
/-
  The idealized kernel program's result as two layers of the launch arrays.

  Between the launch and the first kernel call the program computes, per relation, the rows of the node features named by the source
  indices, their products with the edge features, and the scatter-add of the products into the destination rows: `agg` of the launch
  arrays, since under the precondition the filled row read is the plain row read. It reshapes the bias to a row. The first kernel call
  leaves `upd` of those in its output: one `layer`. The same operations over that output with the second weight matrix and bias, and the
  second kernel call, give the second `layer`. A buffer that a stretch of host operations does not write keeps its contents, and a kernel
  call changes only its output array: that is how each operand is traced back to the launch.
-/
import proofs.«425860_j65163243815763_3_alg».proof.Proof.Gen.KernelIdeal.Frame
import proofs.«425860_j65163243815763_3_alg».proof.Proof.HostWrites
import proofs.«425860_j65163243815763_3_alg».proof.Proof.HostStretch
import proofs.«425860_j65163243815763_3_alg».proof.Proof.KernelRegion

set_option maxRecDepth 16384

noncomputable section

namespace Cert.KernelIdeal.HostValue

open Idealize.ShloMosaic Idealize.ShloMosaic.TcCoe Idealize.ShloMosaic.ValueIdx
open Idealize.SL.Sem Idealize.ShloMosaic.StableHlo
open Cert.KernelIdeal Cert.KernelIdeal.Gen Cert.KernelIdeal.HostWrites Cert.LinkConv

/-! ## The stretches before each kernel call, walked in order -/

/-- The contents at the first kernel call's entry, from contents `X` at the launch: the four stretches in order. -/
abbrev entry0 (X : Valuation τ sig (Elt Ideal)) : Valuation τ sig (Elt Ideal) :=
  StableHlo.after hostOps0_3 (StableHlo.after hostOps0_2 (StableHlo.after hostOps0_1 (StableHlo.after hostOps0 X)))

/-- A buffer none of the four stretches writes is at the first kernel call's entry what it was at the launch. -/
theorem entry0_keep (X : Valuation τ sig (Elt Ideal)) (r : Ref sig .tc) (h0 : r ∉ wr0) (h1 : r ∉ wr0_1) (h2 : r ∉ wr0_2) (h3 : r ∉ wr0_3) :
    entry0 X (Proc.devRef .tc r) = X (Proc.devRef .tc r) :=
  (keep0_3 _ r h3).trans ((keep0_2 _ r h2).trans ((keep0_1 _ r h1).trans (keep0 X r h0)))

/-- At the first kernel call's entry: both relations' aggregates of the launch node features, and the bias as a row. -/
theorem entry0_vals (X : Valuation τ sig (Elt Ideal)) (h : Vec Ideal S50000x64 .f32) (f1 f2 : Vec Ideal S800000x64 .f32) (b : Vec Ideal S64 .f32)
    (s1 d1 s2 d2 : IVec S800000 32)
    (e0 : X (Proc.devRef .tc main_arg0) = h) (e1 : X (Proc.devRef .tc main_arg1) = f1) (e2 : X (Proc.devRef .tc main_arg2) = f2)
    (e4 : X (Proc.devRef .tc main_arg4) = b) (e7 : X (Proc.devRef .tc main_arg7) = s1) (e8 : X (Proc.devRef .tc main_arg8) = d1)
    (e9 : X (Proc.devRef .tc main_arg9) = s2) (e10 : X (Proc.devRef .tc main_arg10) = d2)
    (hs1 : ∀ e, InRange (s1 e)) (hs2 : ∀ e, InRange (s2 e)) :
    (entry0 X (Proc.devRef .tc main_v4) : Vec Ideal S50000x64 .f32) = agg dims h f1 s1 d1
    ∧ (entry0 X (Proc.devRef .tc main_v9) : Vec Ideal S50000x64 .f32) = agg dims h f2 s2 d2
    ∧ ∀ q : Fin 64, (entry0 X (Proc.devRef .tc main_v10) : Vec Ideal S1x64 .f32) (ix2 0 q) = b (ix1 q) := by
  -- the rows read for the first relation, then its aggregate
  have g1 := take0 X h s1 e0 e7 hs1
  have a1 := agg0_1 (StableHlo.after hostOps0 X) h f1 s1 d1
    ((keep0 X main_arg1 (by decide)).trans e1) ((keep0 X main_arg8 (by decide)).trans e8) g1
  -- what the first two stretches leave of the arguments
  have k2 : ∀ (r : Ref sig .tc), r ∉ wr0 → r ∉ wr0_1 →
      StableHlo.after hostOps0_1 (StableHlo.after hostOps0 X) (Proc.devRef .tc r) = X (Proc.devRef .tc r) :=
    fun r h0 h1 => (keep0_1 _ r h1).trans (keep0 X r h0)
  -- the rows read for the second relation
  have g2 := take0_2 (StableHlo.after hostOps0_1 (StableHlo.after hostOps0 X)) h s2
    ((k2 main_arg0 (by decide) (by decide)).trans e0) ((k2 main_arg9 (by decide) (by decide)).trans e9) hs2
  -- what the first three stretches leave of the arguments, then the second aggregate and the bias row
  have k3 : ∀ (r : Ref sig .tc), r ∉ wr0 → r ∉ wr0_1 → r ∉ wr0_2 →
      StableHlo.after hostOps0_2 (StableHlo.after hostOps0_1 (StableHlo.after hostOps0 X)) (Proc.devRef .tc r) = X (Proc.devRef .tc r) :=
    fun r h0 h1 h2 => (keep0_2 _ r h2).trans (k2 r h0 h1)
  have a2 := agg0_3 (StableHlo.after hostOps0_2 (StableHlo.after hostOps0_1 (StableHlo.after hostOps0 X))) h f2 s2 d2
    ((k3 main_arg2 (by decide) (by decide) (by decide)).trans e2) ((k3 main_arg10 (by decide) (by decide) (by decide)).trans e10) g2
  refine ⟨?_, a2, fun q => bias0_3 _ b ((k3 main_arg4 (by decide) (by decide) (by decide)).trans e4) q⟩
  exact (keep0_3 _ main_v4 (by decide)).trans ((keep0_2 _ main_v4 (by decide)).trans a1)

/-- The contents at the second kernel call's entry, from contents `X` at the first one's exit: the four stretches in order. -/
abbrev entry1 (X : Valuation τ sig (Elt Ideal)) : Valuation τ sig (Elt Ideal) :=
  StableHlo.after hostOps1_3 (StableHlo.after hostOps1_2 (StableHlo.after hostOps1_1 (StableHlo.after hostOps1 X)))

/-- A buffer none of the four stretches writes is at the second kernel call's entry what it was at the first one's exit. -/
theorem entry1_keep (X : Valuation τ sig (Elt Ideal)) (r : Ref sig .tc) (h0 : r ∉ wr1) (h1 : r ∉ wr1_1) (h2 : r ∉ wr1_2) (h3 : r ∉ wr1_3) :
    entry1 X (Proc.devRef .tc r) = X (Proc.devRef .tc r) :=
  (keep1_3 _ r h3).trans ((keep1_2 _ r h2).trans ((keep1_1 _ r h1).trans (keep1 X r h0)))

/-- At the second kernel call's entry: both relations' aggregates of the first kernel call's output, and the second bias as a row. -/
theorem entry1_vals (X : Valuation τ sig (Elt Ideal)) (h : Vec Ideal S50000x64 .f32) (f1 f2 : Vec Ideal S800000x64 .f32) (b : Vec Ideal S64 .f32)
    (s1 d1 s2 d2 : IVec S800000 32)
    (e0 : X (Proc.devRef .tc main_v11) = h) (e1 : X (Proc.devRef .tc main_arg1) = f1) (e2 : X (Proc.devRef .tc main_arg2) = f2)
    (e6 : X (Proc.devRef .tc main_arg6) = b) (e7 : X (Proc.devRef .tc main_arg7) = s1) (e8 : X (Proc.devRef .tc main_arg8) = d1)
    (e9 : X (Proc.devRef .tc main_arg9) = s2) (e10 : X (Proc.devRef .tc main_arg10) = d2)
    (hs1 : ∀ e, InRange (s1 e)) (hs2 : ∀ e, InRange (s2 e)) :
    (entry1 X (Proc.devRef .tc main_v16) : Vec Ideal S50000x64 .f32) = agg dims h f1 s1 d1
    ∧ (entry1 X (Proc.devRef .tc main_v21) : Vec Ideal S50000x64 .f32) = agg dims h f2 s2 d2
    ∧ ∀ q : Fin 64, (entry1 X (Proc.devRef .tc main_v22) : Vec Ideal S1x64 .f32) (ix2 0 q) = b (ix1 q) := by
  have g1 := take1 X h s1 e0 e7 hs1
  have a1 := agg1_1 (StableHlo.after hostOps1 X) h f1 s1 d1
    ((keep1 X main_arg1 (by decide)).trans e1) ((keep1 X main_arg8 (by decide)).trans e8) g1
  have k2 : ∀ (r : Ref sig .tc), r ∉ wr1 → r ∉ wr1_1 →
      StableHlo.after hostOps1_1 (StableHlo.after hostOps1 X) (Proc.devRef .tc r) = X (Proc.devRef .tc r) :=
    fun r h0 h1 => (keep1_1 _ r h1).trans (keep1 X r h0)
  have g2 := take1_2 (StableHlo.after hostOps1_1 (StableHlo.after hostOps1 X)) h s2
    ((k2 main_v11 (by decide) (by decide)).trans e0) ((k2 main_arg9 (by decide) (by decide)).trans e9) hs2
  have k3 : ∀ (r : Ref sig .tc), r ∉ wr1 → r ∉ wr1_1 → r ∉ wr1_2 →
      StableHlo.after hostOps1_2 (StableHlo.after hostOps1_1 (StableHlo.after hostOps1 X)) (Proc.devRef .tc r) = X (Proc.devRef .tc r) :=
    fun r h0 h1 h2 => (keep1_2 _ r h2).trans (k2 r h0 h1)
  have a2 := agg1_3 (StableHlo.after hostOps1_2 (StableHlo.after hostOps1_1 (StableHlo.after hostOps1 X))) h f2 s2 d2
    ((k3 main_arg2 (by decide) (by decide) (by decide)).trans e2) ((k3 main_arg10 (by decide) (by decide) (by decide)).trans e10) g2
  refine ⟨?_, a2, fun q => bias1_3 _ b ((k3 main_arg6 (by decide) (by decide) (by decide)).trans e6) q⟩
  exact (keep1_3 _ main_v16 (by decide)).trans ((keep1_2 _ main_v16 (by decide)).trans a1)

/-! ## The result -/

variable (m : (ℓ : Loc nD τ sig) → Buf (Elt Ideal) ℓ) (ρ : Dev nD → PrngReg)

/-- The first kernel call's output array is one layer of the launch arrays. -/
theorem first_layer (c : Dev nD)
    (hs1 : ∀ e, InRange (((m ((c : Thread nD τ).loc main_arg7)) : IVec S800000 32) e)) (hs2 : ∀ e, InRange (((m ((c : Thread nD τ).loc main_arg9)) : IVec S800000 32) e)) :
    (W5 m ρ c (Proc.devRef .tc main_v11) : Vec Ideal S50000x64 .f32)
      = layer dims (m ((c : Thread nD τ).loc main_arg0)) (m ((c : Thread nD τ).loc main_arg1)) (m ((c : Thread nD τ).loc main_arg2)) (m ((c : Thread nD τ).loc main_arg3))
          (fun q => ((m ((c : Thread nD τ).loc main_arg4)) : Vec Ideal S64 .f32) (ix1 q))
          (m ((c : Thread nD τ).loc main_arg7)) (m ((c : Thread nD τ).loc main_arg8)) (m ((c : Thread nD τ).loc main_arg9)) (m ((c : Thread nD τ).loc main_arg10)) := by
  obtain ⟨a1, a2, hb⟩ := entry0_vals (W0 m ρ c) (m ((c : Thread nD τ).loc main_arg0)) (m ((c : Thread nD τ).loc main_arg1)) (m ((c : Thread nD τ).loc main_arg2)) (m ((c : Thread nD τ).loc main_arg4))
    (m ((c : Thread nD τ).loc main_arg7)) (m ((c : Thread nD τ).loc main_arg8)) (m ((c : Thread nD τ).loc main_arg9)) (m ((c : Thread nD τ).loc main_arg10)) rfl rfl rfl rfl rfl rfl rfl rfl hs1 hs2
  have a1' : (V4 m ρ c main_v4 : Vec Ideal S50000x64 .f32) = _ := a1
  have a2' : (V4 m ρ c main_v9 : Vec Ideal S50000x64 .f32) = _ := a2
  have hh : (V4 m ρ c main_arg0 : Vec Ideal S50000x64 .f32) = (m ((c : Thread nD τ).loc main_arg0)) :=
    entry0_keep (W0 m ρ c) main_arg0 (by decide) (by decide) (by decide) (by decide)
  have hW : (V4 m ρ c main_arg3 : Vec Ideal S128x64 .f32) = (m ((c : Thread nD τ).loc main_arg3)) :=
    entry0_keep (W0 m ρ c) main_arg3 (by decide) (by decide) (by decide) (by decide)
  have hbf : (fun q : Fin 64 => (V4 m ρ c main_v10 : Vec Ideal S1x64 .f32) (ix2 0 q))
      = fun q => ((m ((c : Thread nD τ).loc main_arg4)) : Vec Ideal S64 .f32) (ix1 q) := funext hb
  refine (W5_arr m ρ c 5).trans ((Cert.KernelIdeal.Region.final0 (V4 m ρ) c).trans ?_)
  rw [a1', a2', hh, hW, hbf]
  rfl

/-- The program's result buffer at the last boundary is two layers of the launch arrays. -/
theorem result (c : Dev nD)
    (hs1 : ∀ e, InRange (((m ((c : Thread nD τ).loc main_arg7)) : IVec S800000 32) e)) (hs2 : ∀ e, InRange (((m ((c : Thread nD τ).loc main_arg9)) : IVec S800000 32) e)) :
    (W10 m ρ c (Proc.devRef .tc main_v23) : Vec Ideal S50000x64 .f32)
      = layer dims
          (layer dims (m ((c : Thread nD τ).loc main_arg0)) (m ((c : Thread nD τ).loc main_arg1)) (m ((c : Thread nD τ).loc main_arg2)) (m ((c : Thread nD τ).loc main_arg3))
            (fun q => ((m ((c : Thread nD τ).loc main_arg4)) : Vec Ideal S64 .f32) (ix1 q))
            (m ((c : Thread nD τ).loc main_arg7)) (m ((c : Thread nD τ).loc main_arg8)) (m ((c : Thread nD τ).loc main_arg9)) (m ((c : Thread nD τ).loc main_arg10)))
          (m ((c : Thread nD τ).loc main_arg1)) (m ((c : Thread nD τ).loc main_arg2)) (m ((c : Thread nD τ).loc main_arg5))
          (fun q => ((m ((c : Thread nD τ).loc main_arg6)) : Vec Ideal S64 .f32) (ix1 q))
          (m ((c : Thread nD τ).loc main_arg7)) (m ((c : Thread nD τ).loc main_arg8)) (m ((c : Thread nD τ).loc main_arg9)) (m ((c : Thread nD τ).loc main_arg10)) := by
  have h1 := first_layer m ρ c hs1 hs2
  -- an argument array is at the first kernel call's exit what it was at the launch
  have arg5 : ∀ (r : Ref sig .tc), (∀ w, Pipeline.arrRef spec0 w ≠ r) → r ∉ wr0 → r ∉ wr0_1 → r ∉ wr0_2 → r ∉ wr0_3 →
      W5 m ρ c (Proc.devRef .tc r) = m ((c : Thread nD τ).loc r) :=
    fun r hne k0 k1 k2 k3 => (W5_of_ne m ρ c r hne).trans (entry0_keep (W0 m ρ c) r k0 k1 k2 k3)
  obtain ⟨a1, a2, hb⟩ := entry1_vals (W5 m ρ c) _ (m ((c : Thread nD τ).loc main_arg1)) (m ((c : Thread nD τ).loc main_arg2)) (m ((c : Thread nD τ).loc main_arg6))
    (m ((c : Thread nD τ).loc main_arg7)) (m ((c : Thread nD τ).loc main_arg8)) (m ((c : Thread nD τ).loc main_arg9)) (m ((c : Thread nD τ).loc main_arg10)) h1
    (arg5 main_arg1 (by decide) (by decide) (by decide) (by decide) (by decide))
    (arg5 main_arg2 (by decide) (by decide) (by decide) (by decide) (by decide))
    (arg5 main_arg6 (by decide) (by decide) (by decide) (by decide) (by decide))
    (arg5 main_arg7 (by decide) (by decide) (by decide) (by decide) (by decide))
    (arg5 main_arg8 (by decide) (by decide) (by decide) (by decide) (by decide))
    (arg5 main_arg9 (by decide) (by decide) (by decide) (by decide) (by decide))
    (arg5 main_arg10 (by decide) (by decide) (by decide) (by decide) (by decide)) hs1 hs2
  have a1' : (V9 m ρ c main_v16 : Vec Ideal S50000x64 .f32) = _ := a1
  have a2' : (V9 m ρ c main_v21 : Vec Ideal S50000x64 .f32) = _ := a2
  have hh : (V9 m ρ c main_v11 : Vec Ideal S50000x64 .f32) = _ :=
    (entry1_keep (W5 m ρ c) main_v11 (by decide) (by decide) (by decide) (by decide)).trans h1
  have hW : (V9 m ρ c main_arg5 : Vec Ideal S128x64 .f32) = (m ((c : Thread nD τ).loc main_arg5)) :=
    (entry1_keep (W5 m ρ c) main_arg5 (by decide) (by decide) (by decide) (by decide)).trans
      (arg5 main_arg5 (by decide) (by decide) (by decide) (by decide) (by decide))
  have hbf : (fun q : Fin 64 => (V9 m ρ c main_v22 : Vec Ideal S1x64 .f32) (ix2 0 q))
      = fun q => ((m ((c : Thread nD τ).loc main_arg6)) : Vec Ideal S64 .f32) (ix1 q) := funext hb
  refine (W10_arr m ρ c 5).trans ((Cert.KernelIdeal.Region.final1 (V9 m ρ) c).trans ?_)
  rw [a1', a2', hh, hW, hbf]
  rfl

end Cert.KernelIdeal.HostValue

end
-- ==== Proof.PreRange.lean ====
/-
  What the precondition says about the two source-index arrays.

  The printed precondition is a conjunction, reduced to one bit: every float input is finite, and for each of the two source arrays every
  word `s` satisfies `-50000 ≤ s` and `s < 50000` as signed integers. Only the last two conjuncts are read here: if the bit is `1`, every
  entry of both source arrays is `InRange`.
-/
import proofs.«425860_j65163243815763_3_alg».proof.Pre_finite_inputs
import proofs.«425860_j65163243815763_3_alg».proof.Proof.Gen.Pre_finite_inputs
import proofs.«425860_j65163243815763_3_alg».proof.Proof.Spec
import Idealize.ShloMosaic.Lib.ReduceAll
import Idealize.ShloMosaic.Lib.StableHlo.Predicate

noncomputable section

namespace Cert.LinkConv

open Idealize.ShloMosaic Idealize.ShloMosaic.ValueIdx Cert.Pre_finite_inputs

/-- A rank-0 array has one index. -/
instance : Subsingleton S_.Idx := ⟨fun a b => funext fun d => d.elim0⟩

/-- Under the precondition every entry of both source-index arrays lies in `[-50000, 50000)`. -/
theorem src_ranges [Cert.Pre_finite_inputs.Facts]
    (x0 : FVec Ideal S50000x64 .f32) (x1 x2 : FVec Ideal S800000x64 .f32) (x3 : FVec Ideal S128x64 .f32) (x4 : FVec Ideal S64 .f32)
    (x5 : FVec Ideal S128x64 .f32) (x6 : FVec Ideal S64 .f32) (x7 x8 x9 x10 : IVec S800000 32)
    (h : Cert.Pre_finite_inputs.fn (F := Ideal) x0 x1 x2 x3 x4 x5 x6 x7 x8 x9 x10 = fun _ => 1#1) :
    (∀ e, InRange (x7 e)) ∧ (∀ e, InRange (x9 e)) := by
  -- the one bit of the result, with the chain of definitions opened: ((… ∧ all₇) ∧ all₉) = 1
  have h0 := congrFun h ix0
  dsimp only [fn, fn_part1, fn_part2] at h0
  -- the two outermost conjunctions: the last conjunct speaks of the second source array, the one before it of the first
  obtain ⟨h1, h9⟩ := IntOp.andi_eq_one.1 h0
  obtain ⟨-, h7⟩ := IntOp.andi_eq_one.1 h1
  -- a conjunction over all entries that is 1 is 1 at every entry; there it is the conjunction of the two comparisons of the source
  -- word with the constants (a broadcast scalar reads the same word at every index)
  refine ⟨fun e => ?_, fun e => ?_⟩
  · exact IntOp.andi_eq_one.1 (Host.reduce_andi_all _ _ _ _ _ h7 e)
  · exact IntOp.andi_eq_one.1 (Host.reduce_andi_all _ _ _ _ _ h9 e)

end Cert.LinkConv

end
-- ==== Proof.RefValue.lean ====
/-
  The reference's result as two layers.

  The reference's composed term repeats one pattern twice: both relations' aggregates of the current node features, joined side by side
  into `[50000, 128]`, times the whole weight matrix, plus the bias on every row, `max` with zero, added to the current node features. Read at
  an entry, the product over the joined axis is the sum of its first and last 64 terms (`sum_split`), which is `upd` of the two aggregates:
  the result is `layer` applied to the arguments and then to its own output.
-/
import proofs.«425860_j65163243815763_3_alg».proof.Proof.Gen.ReferenceIdeal.Read
import proofs.«425860_j65163243815763_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.LinkConv

/-- The dimension records and broadcast facts the reference program states. -/
def dims : Dims where
  gd := gather_S50000x64_S800000x1_S800000x64_1_0_n_n_0_1_164
  sd := scatter_S50000x64_S800000x1_S800000x64_1_0_0_1
  b0N := bcast_S_S50000x64
  b0E := bcast_S_S800000
  bE1 := bcast_S800000_S800000x1_0

/-! ## The pieces of one node update, read at an entry -/

/-- The product of a `[50000, 128]` array with a `[128, 64]` matrix at entry `(p, q)`: the sum over the 128 columns of row `p` against
    column `q`. -/
theorem dot_entry (y : FVec Ideal S50000x128 .f32) (W : FVec Ideal S128x64 .f32) (p : Fin 50000) (q : Fin 64) :
    Host.dotGeneral dot_S50000x128_S128x64_S50000x64_1_0_0_1_n_n none y W (ix2 p q)
      = ∑ k : Fin 128, y (ix2 p k) * W (ix2 k q) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 p q) ((ValueIdx.contrEquiv1 dot_S50000x128_S128x64_S50000x64_1_0_0_1_n_n 128 rfl rfl).symm k) = ix2 p k := funext fun a => Fin.ext (by
    match a with
    | ⟨0, _⟩ => exact Read.lhs_main_v23_0 _ _
    | ⟨1, _⟩ => exact (Read.lhs_main_v23_1 _ _).trans hk)
  have er : dot_S50000x128_S128x64_S50000x64_1_0_0_1_n_n.rhsIdx (ix2 p q) ((ValueIdx.contrEquiv1 dot_S50000x128_S128x64_S50000x64_1_0_0_1_n_n 128 rfl rfl).symm k) = ix2 k q := funext fun a => Fin.ext (by
    match a with
    | ⟨0, _⟩ => exact (Read.rhs_main_v23_0 _ _).trans hk
    | ⟨1, _⟩ => exact Read.rhs_main_v23_1 _ _)
  rw [el, er]

/-- Two `[50000, 64]` arrays joined side by side, read in the left half: the first array. -/
theorem join_left (a1 a2 : FVec Ideal S50000x64 .f32) (p : Fin 50000) (k : Fin 64) :
    concatenate S50000x128 1 [⟨S50000x64, a1⟩, ⟨S50000x64, a2⟩] concatenates_S50000x64_S50000x64_S50000x128_d1 (ix2 p (Fin.castAdd 64 k))
      = a1 (ix2 p k) :=
  concatenate_pair_apply_left 1 a1 a2 concatenates_S50000x64_S50000x64_S50000x128_d1 _ rfl (ix2 p k) (fun b => by
    match b with
    | ⟨0, _⟩ => rfl
    | ⟨1, _⟩ => rfl)

/-- Two `[50000, 64]` arrays joined side by side, read in the right half: the second array, 64 columns to the left. -/
theorem join_right (a1 a2 : FVec Ideal S50000x64 .f32) (p : Fin 50000) (k : Fin 64) :
    concatenate S50000x128 1 [⟨S50000x64, a1⟩, ⟨S50000x64, a2⟩] concatenates_S50000x64_S50000x64_S50000x128_d1 (ix2 p (Fin.natAdd 64 k))
      = a2 (ix2 p k) :=
  concatenate_pair_apply_right 1 a1 a2 concatenates_S50000x64_S50000x64_S50000x128_d1 _ rfl rfl (ix2 p k)
    (fun b hb => by
      match b with
      | ⟨0, _⟩ => rfl
      | ⟨1, _⟩ => exact absurd rfl hb)
    (Nat.add_comm _ _)

/-- The bias, first as one row and then on every row, at entry `(p, q)`: its entry `q`. -/
theorem bias_entry (b : FVec Ideal S64 .f32) (p : Fin 50000) (q : Fin 64) :
    broadcastInDim S50000x64 ![0, 1] bcast_S1x64_S50000x64_0_1 (broadcastInDim S1x64 ![1] bcast_S64_S1x64_1 b) (ix2 p q) = b (ix1 q) := by
  rw [broadcastInDim_apply _ bcast_S1x64_S50000x64_0_1 _ (ix2 p q) (ix2 (⟨0, Nat.one_pos⟩ : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]
  exact broadcastInDim_apply _ bcast_S64_S1x64_1 b _ (ix1 q) (fun a => match a with
    | ⟨0, _⟩ => by show q.val = if (64 : Nat) = 1 then 0 else q.val; rw [if_neg (by decide)])

/-- The zero word on every entry is the real number zero. -/
theorem zero_entry (i : S50000x64.Idx) :
    broadcastInDim S50000x64 ![] bcast_S_S50000x64 (constant (F := Ideal) S_ .f32 0x00000000#32) i = (0 : EReal) := by
  rw [broadcastInDim_apply _ bcast_S_S50000x64 _ i (fun a => a.elim0) (fun a => a.elim0), constant_apply]
  exact Ideal.ofBits_zero_f32

/-- The pattern both layers repeat, over any two aggregates `a1`, `a2`, node features `h`, weights `W` and bias `b`: it is the node
    update. The 128-term sum over the joined axis splits into the 64 terms that read `a1` against the upper rows of `W` and the 64
    that read `a2` against its lower rows. -/
theorem pattern_eq_upd (a1 a2 h : FVec Ideal S50000x64 .f32) (W : FVec Ideal S128x64 .f32) (b : FVec Ideal S64 .f32) :
    addf h (maximumf (addf (Host.dotGeneral dot_S50000x128_S128x64_S50000x64_1_0_0_1_n_n none
          (concatenate S50000x128 1 [⟨S50000x64, a1⟩, ⟨S50000x64, a2⟩] concatenates_S50000x64_S50000x64_S50000x128_d1) W)
        (broadcastInDim S50000x64 ![0, 1] bcast_S1x64_S50000x64_0_1 (broadcastInDim S1x64 ![1] bcast_S64_S1x64_1 b)))
      (broadcastInDim S50000x64 ![] bcast_S_S50000x64 (constant (F := Ideal) S_ .f32 0x00000000#32)))
    = upd a1 a2 h W (fun q => b (ix1 q)) := by
  funext i
  obtain ⟨p, q, rfl⟩ : ∃ (p : Fin 50000) (q : Fin 64), i = ix2 p q := ⟨i 0, i 1, eq_ix2 i⟩
  rw [upd_ix2, addf_apply, maximumf_apply, addf_apply, dot_entry, bias_entry, zero_entry, sum_split]
  simp only [join_left, join_right]
  rfl

/-! ## The two layers in the reference's stages -/

section Stages

variable (x0 : FVec Ideal S50000x64 .f32) (x1 x2 : FVec Ideal S800000x64 .f32) (x3 x5 : FVec Ideal S128x64 .f32)
  (x4 x6 : FVec Ideal S64 .f32) (x7 x8 x9 x10 : IVec S800000 32)

/-- The first layer's first aggregate is `agg` of the arguments: the same operations on the same arrays. -/
theorem agg_first_1 : Read.val_main_v10 (F := Ideal) x0 x1 x7 x8 = agg dims x0 x1 x7 x8 := rfl

/-- The first layer's second aggregate. -/
theorem agg_first_2 : Read.val_main_v21 (F := Ideal) x0 x2 x9 x10 = agg dims x0 x2 x9 x10 := rfl

/-- The first layer's output is `layer` of the arguments. -/
theorem first_layer :
    Read.val_main_v28 (F := Ideal) x0 x1 x2 x3 x4 x7 x8 x9 x10 = layer dims x0 x1 x2 x3 (fun q => x4 (ix1 q)) x7 x8 x9 x10 := by
  unfold layer
  rw [← agg_first_1, ← agg_first_2]
  unfold Read.val_main_v28 Read.val_main_v27 Read.val_main_v26 Read.val_main_v23 Read.val_main_v22 Read.val_main_v25 Read.val_main_v24
    Read.val_main_call0_v0 Read.val_main_call0_cst
  exact pattern_eq_upd _ _ _ _ _

/-- The second layer's first aggregate is `agg` of the first layer's output. -/
theorem agg_second_1 :
    Read.val_main_v39 (F := Ideal) x0 x1 x2 x3 x4 x7 x8 x9 x10
      = agg dims (Read.val_main_v28 (F := Ideal) x0 x1 x2 x3 x4 x7 x8 x9 x10) x1 x7 x8 := by
  unfold Read.val_main_v39 Read.val_main_v36 Read.val_main_v35
  generalize Read.val_main_v28 (F := Ideal) x0 x1 x2 x3 x4 x7 x8 x9 x10 = g
  rfl

/-- The second layer's second aggregate. -/
theorem agg_second_2 :
    Read.val_main_v50 (F := Ideal) x0 x1 x2 x3 x4 x7 x8 x9 x10
      = agg dims (Read.val_main_v28 (F := Ideal) x0 x1 x2 x3 x4 x7 x8 x9 x10) x2 x9 x10 := by
  unfold Read.val_main_v50 Read.val_main_v47 Read.val_main_v46
  generalize Read.val_main_v28 (F := Ideal) x0 x1 x2 x3 x4 x7 x8 x9 x10 = g
  rfl

/-- The last stage is `layer` of the first layer's output, with the second layer's weights and bias. -/
theorem second_layer :
    Read.val_main_v57 (F := Ideal) x0 x1 x2 x3 x4 x5 x6 x7 x8 x9 x10
      = layer dims (Read.val_main_v28 (F := Ideal) x0 x1 x2 x3 x4 x7 x8 x9 x10) x1 x2 x5 (fun q => x6 (ix1 q)) x7 x8 x9 x10 := by
  unfold layer
  rw [← agg_second_1, ← agg_second_2]
  unfold Read.val_main_v57 Read.val_main_v56 Read.val_main_v55 Read.val_main_v52 Read.val_main_v51 Read.val_main_v54 Read.val_main_v53
    Read.val_main_call1_v0 Read.val_main_call1_cst
  exact pattern_eq_upd _ _ _ _ _

end Stages

/-- The reference's result term is two layers of the arguments. -/
theorem res_out0_eq (m : (ℓ : Loc nD τ sig) → Buf (Elt Ideal) ℓ) (c : Dev nD) :
    (Cert.ReferenceIdeal.Value.res_out0 (F := Ideal) m c : Vec Ideal S50000x64 .f32)
      = layer dims
          (layer dims (m ((c.tc : Thread nD τ).loc main_arg0)) (m ((c.tc : Thread nD τ).loc main_arg1)) (m ((c.tc : Thread nD τ).loc main_arg2))
            (m ((c.tc : Thread nD τ).loc main_arg3)) (fun q => (m ((c.tc : Thread nD τ).loc main_arg4) : Vec Ideal S64 .f32) (ix1 q))
            (m ((c.tc : Thread nD τ).loc main_arg7)) (m ((c.tc : Thread nD τ).loc main_arg8)) (m ((c.tc : Thread nD τ).loc main_arg9)) (m ((c.tc : Thread nD τ).loc main_arg10)))
          (m ((c.tc : Thread nD τ).loc main_arg1)) (m ((c.tc : Thread nD τ).loc main_arg2))
          (m ((c.tc : Thread nD τ).loc main_arg5)) (fun q => (m ((c.tc : Thread nD τ).loc main_arg6) : Vec Ideal S64 .f32) (ix1 q))
          (m ((c.tc : Thread nD τ).loc main_arg7)) (m ((c.tc : Thread nD τ).loc main_arg8)) (m ((c.tc : Thread nD τ).loc main_arg9)) (m ((c.tc : Thread nD τ).loc main_arg10)) := by
  show Cert.ReferenceIdeal.Value.res_main_v57 (F := Ideal) m c = _
  rw [Read.val_main_v57_eq, second_layer, first_layer]

end Cert.ReferenceIdeal.RefValue

end
-- ==== Proof.lean ====
/-
  The certificate: a two-layer message-passing update, its Pallas implementation against its jnp reference, over the extended reals.

  Each layer sends the node features `h` to `h + relu (a₁ · W[0:64] + a₂ · W[64:128] + b)`, where `a₁`, `a₂` are the two relations'
  aggregates of `h` (`Cert.LinkConv.layer`). The kernel program computes the aggregates on the host and the update in a kernel call over row
  blocks, multiplying the two halves of `W` separately; the reference joins `a₁` and `a₂` side by side and multiplies by the whole `W`. The
  two agree entry by entry because a sum over the 128 joined columns is the sum over the first 64 plus the sum over the last 64. The kernel
  program reads a source node's row with a fill for out-of-range indices where the reference's read clamps them, so the statement assumes
  every source index in `[-50000, 50000)`, the range in which both name the same row; under it the fill is never taken.

  The kernel programs' frames are the generated ones, the reference's frame is its generated run with the result dropped, the idealization
  rewrote nothing, and for the equality both runs end at the same term: two layers of the launch arrays.
-/
import proofs.«425860_j65163243815763_3_alg».proof.Defs
import proofs.«425860_j65163243815763_3_alg».proof.Proof.Gen.Kernel
import proofs.«425860_j65163243815763_3_alg».proof.Proof.Gen.Kernel.Frame
import proofs.«425860_j65163243815763_3_alg».proof.Proof.Gen.KernelIdeal
import proofs.«425860_j65163243815763_3_alg».proof.Proof.Gen.KernelIdeal.Frame
import proofs.«425860_j65163243815763_3_alg».proof.Proof.Gen.ReferenceIdeal
import proofs.«425860_j65163243815763_3_alg».proof.Proof.Gen.ReferenceIdeal.Run
import proofs.«425860_j65163243815763_3_alg».proof.Proof.Gen.ReferenceIdeal.Read
import proofs.«425860_j65163243815763_3_alg».proof.Proof.Gen.Pre_finite_inputs
import proofs.«425860_j65163243815763_3_alg».proof.Proof.KernelRun
import proofs.«425860_j65163243815763_3_alg».proof.Proof.KernelHost
import proofs.«425860_j65163243815763_3_alg».proof.Proof.PreRange
import proofs.«425860_j65163243815763_3_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.LinkConv

/-- Both printed programs state the same dimension records and broadcast facts. -/
theorem dims_eq : Cert.ReferenceIdeal.RefValue.dims = Cert.KernelIdeal.HostValue.dims := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition both idealized programs end with two layers of the launch arrays in their result. -/
theorem algebraic : Cert.algebraic_KernelIdeal_ReferenceIdeal := by
  intro m ρ m' ρ' hpre hagree
  have hr : ∀ c : Dev Cert.KernelIdeal.nD,
      (∀ e, InRange (((m ((c.tc : Thread Cert.KernelIdeal.nD Cert.KernelIdeal.τ).loc Cert.KernelIdeal.main_arg7)) : IVec Cert.KernelIdeal.S800000 32) e))
      ∧ (∀ e, InRange (((m ((c.tc : Thread Cert.KernelIdeal.nD Cert.KernelIdeal.τ).loc Cert.KernelIdeal.main_arg9)) : IVec Cert.KernelIdeal.S800000 32) e)) :=
    fun c => Cert.LinkConv.src_ranges _ _ _ _ _ _ _ _ _ _ _ (hpre c)
  refine ⟨_, (θ_run Cert.KernelIdeal.defs _ _).mono
    (fun r h c => ⟨(h c).1.trans (Cert.KernelIdeal.HostValue.result m ρ c (hr c).1 (hr c).2), (h c).2⟩)
    (Cert.KernelIdeal.Named.run_named (F := Ideal) m ρ), ?_⟩
  refine (θ_run Cert.ReferenceIdeal.defs _ _).mono (fun r h c => ⟨(h c).1.trans ?_, (h c).2⟩)
    (Cert.ReferenceIdeal.Value.run (F := Ideal) m' ρ')
  refine (Cert.ReferenceIdeal.RefValue.res_out0_eq m' c).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2, dims_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
